-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v23)) (v2 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S262144 : Shape := ⟨1, ![262144]⟩
abbrev S10x256 : Shape := ⟨2, ![10, 256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S10x256 : S_.BroadcastsInDim S10x256 (![] : Fin 0 → Fin S10x256.rank)
  reducesTo_S10x256_S_d0_1 : S10x256.ReducesTo [0, 1] S_
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S262144x256 .f32) (main_arg1 : IVec S262144 32) (main_arg2 : FVec F S10x256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S10x256 .f32 := Host.absf main_arg2
  let main_cst_0 : FVec F S_ .f32 := constant S_ .f32 0x7F800000#32
  let main_v5 : FVec F S10x256 .f32 := broadcastInDim S10x256 ![] bcast_S_S10x256 main_cst_0
  let main_v6 : IVec S10x256 1 := cmpf .olt main_v4 main_v5
  let main_c_1 : IVec S_ 1 := constantI S_ 1 1#1
  let main_v7 : IVec S_ 1 := (fun x v => Host.reduce IntOp.andi x v reducesTo_S10x256_S_d0_1 h_S_) main_v6 main_c_1
  let main_v8 : IVec S_ 1 := andi main_v3 main_v7
  let main_c_2 : IVec S_ 32 := constantI S_ 32 0#32
  let main_v9 : IVec S262144 32 := broadcastInDim S262144 ![] bcast_S_S262144 main_c_2
  let main_v10 : IVec S262144 1 := cmpi .sge main_arg1 main_v9
  let main_c_3 : IVec S_ 32 := constantI S_ 32 10#32
  let main_v11 : IVec S262144 32 := broadcastInDim S262144 ![] bcast_S_S262144 main_c_3
  let main_v12 : IVec S262144 1 := cmpi .slt main_arg1 main_v11
  let main_v13 : IVec S262144 1 := andi main_v10 main_v12
  let main_c_4 : IVec S_ 1 := constantI S_ 1 1#1
  let main_v14 : IVec S_ 1 := (fun x v => Host.reduce IntOp.andi x v reducesTo_S262144_S_d0 h_S_) main_v13 main_c_4
  let main_v15 : IVec S_ 1 := andi main_v8 main_v14
  main_v15
-- ==== Kernel.lean ====
abbrev S262144x256 : Shape := ⟨2, ![262144, 256]⟩
abbrev S262144 : Shape := ⟨1, ![262144]⟩
abbrev S10x256 : Shape := ⟨2, ![10, 256]⟩
abbrev S262144x1 : Shape := ⟨2, ![262144, 1]⟩
abbrev S1x1 : Shape := ⟨2, ![1, 1]⟩
abbrev S1x10 : Shape := ⟨2, ![1, 10]⟩
abbrev S8192x256 : Shape := ⟨2, ![8192, 256]⟩
abbrev S8192x1 : Shape := ⟨2, ![8192, 1]⟩
abbrev S8192 : Shape := ⟨1, ![8192]⟩
abbrev S10 : Shape := ⟨1, ![10]⟩
abbrev S8192x10 : Shape := ⟨2, ![8192, 10]⟩
abbrev S1 : Shape := ⟨1, ![1]⟩
abbrev S_ : Shape := ⟨0, ![]⟩
abbrev S10x1 : Shape := ⟨2, ![10, 1]⟩
abbrev S1x256 : Shape := ⟨2, ![1, 256]⟩
abbrev S256 : Shape := ⟨1, ![256]⟩

abbrev nBuf : Space → Nat
  | .hbm => 40
  | .vmem => 8
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S10x256, .f32⟩
  | .hbm, ⟨3, _⟩ => ⟨S262144x1, .i32⟩
  | .hbm, ⟨4, _⟩ => ⟨S1x1, .f32⟩
  | .hbm, ⟨5, _⟩ => ⟨S10x256, .f32⟩
  | .hbm, ⟨6, _⟩ => ⟨S1x10, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S10, .f32⟩
  | .hbm, ⟨11, _⟩ => ⟨S10x256, .f32⟩
  | .hbm, ⟨12, _⟩ => ⟨S_, .f32⟩
  | .hbm, ⟨13, _⟩ => ⟨S10, .f32⟩
  | .hbm, ⟨14, _⟩ => ⟨S10, .f32⟩
  | .hbm, ⟨15, _⟩ => ⟨S10x1, .f32⟩
  | .hbm, ⟨16, _⟩ => ⟨S10x256, .f32⟩
  | .hbm, ⟨17, _⟩ => ⟨S10x256, .f32⟩
  | .hbm, ⟨18, _⟩ => ⟨S1x256, .f32⟩
  | .hbm, ⟨19, _⟩ => ⟨S256, .f32⟩
  | .hbm, ⟨20, _⟩ => ⟨S1x256, .f32⟩
  | .hbm, ⟨21, _⟩ => ⟨S256, .f32⟩
  | .hbm, ⟨22, _⟩ => ⟨S256, .f32⟩
  | .hbm, ⟨23, _⟩ => ⟨S256, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S8192x256, .f32⟩
  | .local _ .vmem, ⟨1, _⟩ => ⟨S8192x256, .f32⟩
  | .local _ .vmem, ⟨2, _⟩ => ⟨S8192x1, .i32⟩
  | .local _ .vmem, ⟨3, _⟩ => ⟨S8192x1, .i32⟩
  | .local _ .vmem, ⟨4, _⟩ => ⟨S10x256, .f32⟩
  | .local _ .vmem, ⟨5, _⟩ => ⟨S1x1, .f32⟩
  | .local _ .vmem, ⟨6, _⟩ => ⟨S10x256, .f32⟩
  | .local _ .vmem, ⟨7, _⟩ => ⟨S1x10, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_cst_5 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S262144_S262144x1 : S262144.ShapeCasts S262144x1
  inb_S1x1_S1x1_0_0 : ∀ a, (![0, 0] : Fin 2 → Nat) a + S1x1.size a ≤ S1x1.size a
  h_S1x1 : 0 < S1x1.numel
  inb_S10x256_S10x256_0_0 : ∀ a, (![0, 0] : Fin 2 → Nat) a + S10x256.size a ≤ S10x256.size a
  h_S10x256 : 0 < S10x256.numel
  inb_S1x10_S1x10_0_0 : ∀ a, (![0, 0] : Fin 2 → Nat) a + S1x10.size a ≤ S1x10.size a
  h_S1x10 : 0 < S1x10.numel
  inb_S8192x256_S8192x256_0_0 : ∀ a, (![0, 0] : Fin 2 → Nat) a + S8192x256.size a ≤ S8192x256.size a
  h_S8192x256 : 0 < S8192x256.numel
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  reduces_S8192x256_S8192 : S8192x256.Reduces [1] S8192
  shapeCasts_S8192_S8192x1 : S8192.ShapeCasts S8192x1
  reduces_S10x256_S10 : S10x256.Reduces [1] S10
  shapeCasts_S10_S1x10 : S10.ShapeCasts S1x10
  broadcasts_S8192x1_S8192x10 : S8192x1.Broadcasts S8192x10
  broadcasts_S1x10_S8192x10 : S1x10.Broadcasts S8192x10
  iota_S8192x10_d1_w32 : S8192x10.Iotas .tc 32 [1]
  natLt_1_32 : 1 < 32
  reduces_S8192x10_S8192 : S8192x10.Reduces [1] S8192
  reduces_S8192x1_S1 : S8192x1.Reduces [0] S1
  shapeCasts_S1_S1x1 : S1.ShapeCasts S1x1
  shapeCasts_S1x1_S1x1 : S1x1.ShapeCasts S1x1
  shapeCasts_S10x256_S10x256 : S10x256.ShapeCasts S10x256
  reduces_S8192x10_S10 : S8192x10.Reduces [0] S10
  shapeCasts_S1x10_S1x10 : S1x10.ShapeCasts S1x10
  shapeCasts_S1x1_S_ : S1x1.ShapeCasts S_
  shapeCasts_S1x10_S10 : S1x10.ShapeCasts S10
  bcast_S_S10 : S_.BroadcastsInDim S10 (![] : Fin 0 → Fin S10.rank)
  bcast_S10_S10x1_0 : S10.BroadcastsInDim S10x1 (![0] : Fin 1 → Fin S10x1.rank)
  bcast_S10x1_S10x256_0_1 : S10x1.BroadcastsInDim S10x256 (![0, 1] : Fin 2 → Fin S10x256.rank)
  slices_S10x256_S1x256_8_0 : S10x256.Slices ![8, 0] S1x256
  shapeCasts_S1x256_S256 : S1x256.ShapeCasts S256
  slices_S10x256_S1x256_9_0 : S10x256.Slices ![9, 0] S1x256
  reducesTo_S256_S_d0 : S256.ReducesTo [0] S_
  h_S_ : 0 < S_.numel
  bcast_S_S_ : S_.BroadcastsInDim S_ (![] : Fin 0 → Fin S_.rank)
  dot_S8192x256_S10x256_S8192x10_1_1_0_0_n_n_wf : DotDims.WF S8192x256 S10x256 S8192x10 [1] [1] [0] [0] [] []
  dot_S8192x10_S8192x256_S10x256_0_0_1_1_n_n_wf : DotDims.WF S8192x10 S8192x256 S10x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S262144x256.size a
  hwx0_0 : ∀ i : grid0.Coords, EltTy.bits .f32 = 32 ∨ (Rect.block (s := S262144x256) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S262144x1.size a
  hwx0_1 : ∀ i : grid0.Coords, EltTy.bits .i32 = 32 ∨ (Rect.block (s := S262144x1) S8192x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x256.size a ≤ S10x256.size a
  hwx0_2 : ∀ i : grid0.Coords, EltTy.bits .f32 = 32 ∨ (Rect.block (s := S10x256) S10x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x256.size a ≤ S10x256.size a
  hwx0_4 : ∀ i : grid0.Coords, EltTy.bits .f32 = 32 ∨ (Rect.block (s := S10x256) S10x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x10.size a ≤ S1x10.size a
  hwx0_5 : ∀ i : grid0.Coords, EltTy.bits .f32 = 32 ∨ (Rect.block (s := S1x10) S1x10.size (cc0_transform_5 i) (hinb0_5 i)).WholeWords (EltTy.packing .f32)

variable [Facts₀]

def dot_S8192x256_S10x256_S8192x10_1_1_0_0_n_n : DotDims S8192x256 S10x256 S8192x10 where
  lhsContracting := [1]
  rhsContracting := [1]
  lhsNonContracting := [0]
  rhsNonContracting := [0]
  lhsBatch := []
  rhsBatch := []
  wf := dot_S8192x256_S10x256_S8192x10_1_1_0_0_n_n_wf
def dot_S8192x10_S8192x256_S10x256_0_0_1_1_n_n : DotDims S8192x10 S8192x256 S10x256 where
  lhsContracting := [0]
  rhsContracting := [0]
  lhsNonContracting := [1]
  rhsNonContracting := [1]
  lhsBatch := []
  rhsBatch := []
  wf := dot_S8192x10_S8192x256_S10x256_0_0_1_1_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S10x256.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_2) S1x10.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S262144x256 : Shape := ⟨2, ![262144, 256]⟩
abbrev S262144 : Shape := ⟨1, ![262144]⟩
abbrev S10x256 : Shape := ⟨2, ![10, 256]⟩
abbrev S_ : Shape := ⟨0, ![]⟩
abbrev S262144x1 : Shape := ⟨2, ![262144, 1]⟩
abbrev S10 : Shape := ⟨1, ![10]⟩
abbrev S1x10 : Shape := ⟨2, ![1, 10]⟩
abbrev S262144x10 : Shape := ⟨2, ![262144, 10]⟩
abbrev S256x10 : Shape := ⟨2, ![256, 10]⟩
abbrev S262144x2 : Shape := ⟨2, ![262144, 2]⟩
abbrev S10x1 : Shape := ⟨2, ![10, 1]⟩
abbrev S1x256 : Shape := ⟨2, ![1, 256]⟩
abbrev S256 : Shape := ⟨1, ![256]⟩

abbrev nBuf : Space → Nat
  | .hbm => 94
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S10x256, .f32⟩
  | .hbm, ⟨3, _⟩ => ⟨S262144x256, .f32⟩
  | .hbm, ⟨4, _⟩ => ⟨S_, .f32⟩
  | .hbm, ⟨5, _⟩ => ⟨S262144, .f32⟩
  | .hbm, ⟨6, _⟩ => ⟨S262144x1, .f32⟩
  | .hbm, ⟨7, _⟩ => ⟨S10x256, .f32⟩
  | .hbm, ⟨8, _⟩ => ⟨S_, .f32⟩
  | .hbm, ⟨9, _⟩ => ⟨S10, .f32⟩
  | .hbm, ⟨10, _⟩ => ⟨S1x10, .f32⟩
  | .hbm, ⟨11, _⟩ => ⟨S262144x10, .f32⟩
  | .hbm, ⟨12, _⟩ => ⟨S262144x10, .f32⟩
  | .hbm, ⟨13, _⟩ => ⟨S262144x10, .f32⟩
  | .hbm, ⟨14, _⟩ => ⟨S256x10, .f32⟩
  | .hbm, ⟨15, _⟩ => ⟨S262144x10, .f32⟩
  | .hbm, ⟨16, _⟩ => ⟨S_, .f32⟩
  | .hbm, ⟨17, _⟩ => ⟨S262144x10, .f32⟩
  | .hbm, ⟨18, _⟩ => ⟨S262144x10, .f32⟩
  | .hbm, ⟨19, _⟩ => ⟨S262144x10, .f32⟩
  | .hbm, ⟨20, _⟩ => ⟨S_, .f32⟩
  | .hbm, ⟨21, _⟩ => ⟨S262144x10, .f32⟩
  | .hbm, ⟨22, _⟩ => ⟨S262144x10, .f32⟩
  | .hbm, ⟨23, _⟩ => ⟨S262144, .i32⟩
  | .hbm, ⟨24, _⟩ => ⟨S_, .i32⟩
  | .hbm, ⟨25, _⟩ => ⟨S262144, .i32⟩
  | .hbm, ⟨26, _⟩ => ⟨S262144, .i1⟩
  | .hbm, ⟨27, _⟩ => ⟨S_, .i32⟩
  | .hbm, ⟨28, _⟩ => ⟨S262144, .i32⟩
  | .hbm, ⟨29, _⟩ => ⟨S262144, .i32⟩
  | .hbm, ⟨30, _⟩ => ⟨S262144, .i32⟩
  | .hbm, ⟨31, _⟩ => ⟨S_, .i32⟩
  | .hbm, ⟨32, _⟩ => ⟨S262144, .i32⟩
  | .hbm, ⟨33, _⟩ => ⟨S262144, .i1⟩
  | .hbm, ⟨34, _⟩ => ⟨S_, .i32⟩
  | .hbm, ⟨35, _⟩ => ⟨S262144, .i32⟩
  | .hbm, ⟨36, _⟩ => ⟨S262144, .i32⟩
  | .hbm, ⟨37, _⟩ => ⟨S262144, .i32⟩
  | .hbm, ⟨38, _⟩ => ⟨S262144x1, .i32⟩
  | .hbm, ⟨39, _⟩ => ⟨S262144x1, .i32⟩
  | .hbm, ⟨40, _⟩ => ⟨S262144x2, .i32⟩
  | .hbm, ⟨41, _⟩ => ⟨S262144, .f32⟩
  | .hbm, ⟨42, _⟩ => ⟨S262144, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S262144, .f32⟩
  | .hbm, ⟨47, _⟩ => ⟨S262144, .f32⟩
  | .hbm, ⟨48, _⟩ => ⟨S_, .f32⟩
  | .hbm, ⟨49, _⟩ => ⟨S262144, .f32⟩
  | .hbm, ⟨50, _⟩ => ⟨S262144, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S10x256, .f32⟩
  | .hbm, ⟨57, _⟩ => ⟨S262144x1, .i32⟩
  | .hbm, ⟨58, _⟩ => ⟨S10x256, .f32⟩
  | .hbm, ⟨59, _⟩ => ⟨S_, .f32⟩
  | .hbm, ⟨60, _⟩ => ⟨S262144, .f32⟩
  | .hbm, ⟨61, _⟩ => ⟨S_, .f32⟩
  | .hbm, ⟨62, _⟩ => ⟨S10, .f32⟩
  | .hbm, ⟨63, _⟩ => ⟨S262144x1, .i32⟩
  | .hbm, ⟨64, _⟩ => ⟨S10, .f32⟩
  | .hbm, ⟨65, _⟩ => ⟨S10x256, .f32⟩
  | .hbm, ⟨66, _⟩ => ⟨S_, .f32⟩
  | .hbm, ⟨67, _⟩ => ⟨S10, .f32⟩
  | .hbm, ⟨68, _⟩ => ⟨S10, .f32⟩
  | .hbm, ⟨69, _⟩ => ⟨S10x1, .f32⟩
  | .hbm, ⟨70, _⟩ => ⟨S10x256, .f32⟩
  | .hbm, ⟨71, _⟩ => ⟨S10x256, .f32⟩
  | .hbm, ⟨72, _⟩ => ⟨S1x256, .f32⟩
  | .hbm, ⟨73, _⟩ => ⟨S256, .f32⟩
  | .hbm, ⟨74, _⟩ => ⟨S1x256, .f32⟩
  | .hbm, ⟨75, _⟩ => ⟨S256, .f32⟩
  | .hbm, ⟨76, _⟩ => ⟨S256, .f32⟩
  | .hbm, ⟨77, _⟩ => ⟨S256, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_cst_7 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_cst_10 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_11 : Ref sig .tc := ⟨.hbm, 59, rfl⟩
abbrev main_v38 : Ref sig .tc := ⟨.hbm, 60, rfl⟩
abbrev main_cst_12 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_13 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_14 : Ref sig .tc := ⟨.hbm, 78, rfl⟩
abbrev main_v54 : Ref sig .tc := ⟨.hbm, 79, rfl⟩
abbrev main_cst_15 : Ref sig .tc := ⟨.hbm, 80, rfl⟩
abbrev main_v55 : Ref sig .tc := ⟨.hbm, 81, rfl⟩
abbrev main_v56 : Ref sig .tc := ⟨.hbm, 82, rfl⟩
abbrev main_cst_16 : Ref sig .tc := ⟨.hbm, 83, rfl⟩
abbrev main_v57 : Ref sig .tc := ⟨.hbm, 84, rfl⟩
abbrev main_cst_17 : Ref sig .tc := ⟨.hbm, 85, rfl⟩
abbrev main_cst_18 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v58 : Ref sig .tc := ⟨.hbm, 90, rfl⟩
abbrev main_cst_19 : Ref sig .tc := ⟨.hbm, 91, rfl⟩
abbrev main_v59 : Ref sig .tc := ⟨.hbm, 92, rfl⟩
abbrev main_v60 : Ref sig .tc := ⟨.hbm, 93, rfl⟩

abbrev nD : Nat := 1
abbrev τ : Topo := Topo.v7x

variable {F : FTy → Type} [FloatOps F]

class Facts₀ : Prop where
  reducesTo_S262144x256_S262144_d1 : S262144x256.ReducesTo [1] S262144
  h_S_ : 0 < S_.numel
  bcast_S262144_S262144x1_0 : S262144.BroadcastsInDim S262144x1 (![0] : Fin 1 → Fin S262144x1.rank)
  reducesTo_S10x256_S10_d1 : S10x256.ReducesTo [1] S10
  bcast_S10_S1x10_1 : S10.BroadcastsInDim S1x10 (![1] : Fin 1 → Fin S1x10.rank)
  bcast_S262144x1_S262144x10_0_1 : S262144x1.BroadcastsInDim S262144x10 (![0, 1] : Fin 2 → Fin S262144x10.rank)
  bcast_S1x10_S262144x10_0_1 : S1x10.BroadcastsInDim S262144x10 (![0, 1] : Fin 2 → Fin S262144x10.rank)
  transposes_S10x256_S256x10_1_0 : S10x256.Transposes [1, 0] S256x10
  bcast_S_S262144x10 : S_.BroadcastsInDim S262144x10 (![] : Fin 0 → Fin S262144x10.rank)
  bcast_S_S262144 : S_.BroadcastsInDim S262144 (![] : Fin 0 → Fin S262144.rank)
  concatenates_S262144x1_S262144x1_S262144x2_d1 : Shape.Concatenates [S262144x1, S262144x1] S262144x2 1
  reducesTo_S262144_S_d0 : S262144.ReducesTo [0] S_
  bcast_S_S10x256 : S_.BroadcastsInDim S10x256 (![] : Fin 0 → Fin S10x256.rank)
  bcast_S_S10 : S_.BroadcastsInDim S10 (![] : Fin 0 → Fin S10.rank)
  bcast_S10_S10x1_0 : S10.BroadcastsInDim S10x1 (![0] : Fin 1 → Fin S10x1.rank)
  bcast_S10x1_S10x256_0_1 : S10x1.BroadcastsInDim S10x256 (![0, 1] : Fin 2 → Fin S10x256.rank)
  slices_S10x256_S1x256_8_0 : S10x256.Slices ![8, 0] S1x256
  shapeCasts_S1x256_S256 : S1x256.ShapeCasts S256
  slices_S10x256_S1x256_9_0 : S10x256.Slices ![9, 0] S1x256
  reducesTo_S256_S_d0 : S256.ReducesTo [0] S_
  bcast_S_S_ : S_.BroadcastsInDim S_ (![] : Fin 0 → Fin S_.rank)
  dot_S262144x256_S256x10_S262144x10_1_0_0_1_n_n_wf : DotDims.WF S262144x256 S256x10 S262144x10 [1] [0] [0] [1] [] []
  gather_S262144x10_S262144x2_S262144_n_01_n_n_01_1_11_wf : GatherDims.WF S262144x10 S262144x2 S262144 [] [0, 1] [] [0, 1] [] 1 ![1, 1]
  scatter_S10x256_S262144x1_S262144x256_1_0_0_1_wf : ScatterDims.WF S10x256 S262144x1 S262144x256 [1] [0] [0] 1
  scatter_S10_S262144x1_S262144_n_0_0_1_wf : ScatterDims.WF S10 S262144x1 S262144 [] [0] [0] 1

variable [Facts₀]

def dot_S262144x256_S256x10_S262144x10_1_0_0_1_n_n : DotDims S262144x256 S256x10 S262144x10 where
  lhsContracting := [1]
  rhsContracting := [0]
  lhsNonContracting := [0]
  rhsNonContracting := [1]
  lhsBatch := []
  rhsBatch := []
  wf := dot_S262144x256_S256x10_S262144x10_1_0_0_1_n_n_wf
def gather_S262144x10_S262144x2_S262144_n_01_n_n_01_1_11 : GatherDims S262144x10 S262144x2 S262144 where
  offsetDims := []
  collapsedSliceDims := [0, 1]
  operandBatchingDims := []
  startIndicesBatchingDims := []
  startIndexMap := [0, 1]
  indexVectorDim := 1
  sliceSizes := ![1, 1]
  wf := gather_S262144x10_S262144x2_S262144_n_01_n_n_01_1_11_wf
def scatter_S10x256_S262144x1_S262144x256_1_0_0_1 : ScatterDims S10x256 S262144x1 S262144x256 where
  updateWindowDims := [1]
  insertedWindowDims := [0]
  scatterDimsToOperandDims := [0]
  indexVectorDim := 1
  wf := scatter_S10x256_S262144x1_S262144x256_1_0_0_1_wf
def scatter_S10_S262144x1_S262144_n_0_0_1 : ScatterDims S10 S262144x1 S262144 where
  updateWindowDims := []
  insertedWindowDims := [0]
  scatterDimsToOperandDims := [0]
  indexVectorDim := 1
  wf := scatter_S10_S262144x1_S262144_n_0_0_1_wf

class Facts : Prop extends Facts₀ where

variable [Facts]
-- ==== Proof.Pieces.lean ====
/-
  What one grid point leaves in the three output blocks, as the body's arithmetic.

  Every grid point handles one block of 8192 rows. It leaves, in the three output blocks (one entry for the running
  sum of clipped own distances, a [10, 256] block of per-class feature sums, a [1, 10] row of per-class counts), what
  the block held before plus this block's contribution: k0_pay1, k0_pay2, k0_pay3 of the block's contribution and the
  previous contents. (Of the other payloads named below, k0_pay7 is the block's one-hot rows, k0_pay8 the block's sum of
  clipped own distances, and k0_pay9 the previous running sum re-cast to its own shape, which changes nothing.)
  At the first point the body first stores zeros (k0_pay4, k0_pay5, k0_pay6) and then reads them back, so there the
  previous contents are the zeros; at every later point they are what the point before left. The
  six statements below say exactly that, for any float instance: each output block, read back after the body's
  stores, is the last store's value, and each load the body made reads what the buffer held.
-/
import proofs.«430536_j62929860821403_3_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.Sem

variable {F : FTy → Type} [FloatOps F]

/-- The printed offset of every whole-block access is zero on both axes. -/
theorem off_zero : (![0, 0] : Fin 2 → Nat) = fun _ => 0 := by funext a; fin_cases a <;> rfl

/-! ## The first point: zeros, then this block's contribution -/

/-- The running sum after the first point: zero plus the block's sum of clipped own distances. -/
theorem first_intra (c : Dev nD) (i : grid0.Coords)
    (arg1 : Memref sig .tc .vmem S8192x256 .f32) (harg1 : arg1.IsWhole)
    (arg2 : Memref sig .tc .vmem S8192x1 .i32) (harg2 : arg2.IsWhole)
    (arg3 : Memref sig .tc .vmem S10x256 .f32) (harg3 : arg3.IsWhole)
    (arg4 : Memref sig .tc .vmem S1x1 .f32) (harg4 : arg4.IsWhole)
    (arg5 : Memref sig .tc .vmem S10x256 .f32) (harg5 : arg5.IsWhole)
    (arg6 : Memref sig .tc .vmem S1x10 .f32) (harg6 : arg6.IsWhole) (hc0 : cond0_0 i)
    (x0 : Vec F S8192x256 .f32) (x1 : Vec F S8192x1 .i32) (x2 : Vec F S10x256 .f32) :
    out0_A_3 c i arg1 harg1 arg2 harg2 arg3 harg3 arg4 harg4 arg5 harg5 arg6 harg6 hc0 x0 x1 x2
      = k0_pay1 (k0_pay8 x0 x1 x2) (k0_pay9 (k0_pay4 (F := F))) := by
  unfold out0_A_3
  rw [View.read_writes_eq_canon _ _ _
    (cover0_A_3 c i arg1 harg1 arg2 harg2 arg3 harg3 arg4 harg4 arg5 harg5 arg6 harg6 hc0 x0 x1 x2)]
  unfold kernelRun0_A
  dsimp only
  sl_unfold_words
  refine (View.canon_cons_unit_zero (S := S1x1) off_zero _ _ _).trans ?_
  simp only [View.readAt_eq_ld, Memref.IsWhole.read_unread, View.ld_unit_zero (S := S8192x256) off_zero,
    View.ld_unit_zero (S := S8192x1) off_zero, View.ld_unit_zero (S := S10x256) off_zero,
    View.ld_unit_zero (S := S1x1) off_zero, View.ld_unit_zero (S := S1x10) off_zero,
    View.readCov_unit_zero (S := S1x1) _ off_zero]

/-- The class sums after the first point: zeros plus the block's one-hot-weighted feature rows. -/
theorem first_sums (c : Dev nD) (i : grid0.Coords)
    (arg1 : Memref sig .tc .vmem S8192x256 .f32) (harg1 : arg1.IsWhole)
    (arg2 : Memref sig .tc .vmem S8192x1 .i32) (harg2 : arg2.IsWhole)
    (arg3 : Memref sig .tc .vmem S10x256 .f32) (harg3 : arg3.IsWhole)
    (arg4 : Memref sig .tc .vmem S1x1 .f32) (harg4 : arg4.IsWhole)
    (arg5 : Memref sig .tc .vmem S10x256 .f32) (harg5 : arg5.IsWhole)
    (arg6 : Memref sig .tc .vmem S1x10 .f32) (harg6 : arg6.IsWhole) (hc0 : cond0_0 i)
    (x0 : Vec F S8192x256 .f32) (x1 : Vec F S8192x1 .i32) (x2 : Vec F S10x256 .f32) :
    out0_A_4 c i arg1 harg1 arg2 harg2 arg3 harg3 arg4 harg4 arg5 harg5 arg6 harg6 hc0 x0 x1 x2
      = k0_pay2 x0 (k0_pay7 x1) (k0_pay5 (F := F)) := by
  unfold out0_A_4
  rw [View.read_writes_eq_canon _ _ _
    (cover0_A_4 c i arg1 harg1 arg2 harg2 arg3 harg3 arg4 harg4 arg5 harg5 arg6 harg6 hc0 x0 x1 x2)]
  unfold kernelRun0_A
  dsimp only
  sl_unfold_words
  refine (View.canon_cons_unit_zero (S := S10x256) off_zero _ _ _).trans ?_
  simp only [View.readAt_eq_ld, Memref.IsWhole.read_unread, View.ld_unit_zero (S := S8192x256) off_zero,
    View.ld_unit_zero (S := S8192x1) off_zero, View.ld_unit_zero (S := S10x256) off_zero,
    View.ld_unit_zero (S := S1x1) off_zero, View.ld_unit_zero (S := S1x10) off_zero,
    View.readCov_unit_zero (S := S10x256) _ off_zero]

/-- The class counts after the first point: zeros plus the block's column sums of the one-hot rows. -/
theorem first_counts (c : Dev nD) (i : grid0.Coords)
    (arg1 : Memref sig .tc .vmem S8192x256 .f32) (harg1 : arg1.IsWhole)
    (arg2 : Memref sig .tc .vmem S8192x1 .i32) (harg2 : arg2.IsWhole)
    (arg3 : Memref sig .tc .vmem S10x256 .f32) (harg3 : arg3.IsWhole)
    (arg4 : Memref sig .tc .vmem S1x1 .f32) (harg4 : arg4.IsWhole)
    (arg5 : Memref sig .tc .vmem S10x256 .f32) (harg5 : arg5.IsWhole)
    (arg6 : Memref sig .tc .vmem S1x10 .f32) (harg6 : arg6.IsWhole) (hc0 : cond0_0 i)
    (x0 : Vec F S8192x256 .f32) (x1 : Vec F S8192x1 .i32) (x2 : Vec F S10x256 .f32) :
    out0_A_5 c i arg1 harg1 arg2 harg2 arg3 harg3 arg4 harg4 arg5 harg5 arg6 harg6 hc0 x0 x1 x2
      = k0_pay3 (k0_pay7 x1) (k0_pay6 (F := F)) := by
  unfold out0_A_5
  rw [View.read_writes_eq_canon _ _ _
    (cover0_A_5 c i arg1 harg1 arg2 harg2 arg3 harg3 arg4 harg4 arg5 harg5 arg6 harg6 hc0 x0 x1 x2)]
  unfold kernelRun0_A
  dsimp only
  sl_unfold_words
  refine (View.canon_cons_unit_zero (S := S1x10) off_zero _ _ _).trans ?_
  simp only [View.readAt_eq_ld, Memref.IsWhole.read_unread, View.ld_unit_zero (S := S8192x256) off_zero,
    View.ld_unit_zero (S := S8192x1) off_zero, View.ld_unit_zero (S := S10x256) off_zero,
    View.ld_unit_zero (S := S1x1) off_zero, View.ld_unit_zero (S := S1x10) off_zero,
    View.readCov_unit_zero (S := S1x10) _ off_zero]

/-! ## A later point: what the point before left, plus this block's contribution -/

/-- The running sum after a later point. -/
theorem later_intra (c : Dev nD) (i : grid0.Coords)
    (arg1 : Memref sig .tc .vmem S8192x256 .f32) (harg1 : arg1.IsWhole)
    (arg2 : Memref sig .tc .vmem S8192x1 .i32) (harg2 : arg2.IsWhole)
    (arg3 : Memref sig .tc .vmem S10x256 .f32) (harg3 : arg3.IsWhole)
    (arg4 : Memref sig .tc .vmem S1x1 .f32) (harg4 : arg4.IsWhole)
    (arg5 : Memref sig .tc .vmem S10x256 .f32) (harg5 : arg5.IsWhole)
    (arg6 : Memref sig .tc .vmem S1x10 .f32) (harg6 : arg6.IsWhole) (hc0 : ¬cond0_0 i)
    (x0 : Vec F S8192x256 .f32) (x1 : Vec F S8192x1 .i32) (x2 : Vec F S10x256 .f32)
    (xo3 : Vec F S1x1 .f32) (xo4 : Vec F S10x256 .f32) (xo5 : Vec F S1x10 .f32) :
    out0_B_3 c i arg1 harg1 arg2 harg2 arg3 harg3 arg4 harg4 arg5 harg5 arg6 harg6 hc0 x0 x1 x2 xo3 xo4 xo5
      = k0_pay1 (k0_pay8 x0 x1 x2) (k0_pay9 xo3) := by
  unfold out0_B_3
  rw [View.read_writes_eq_canon _ _ _
    (cover0_B_3 c i arg1 harg1 arg2 harg2 arg3 harg3 arg4 harg4 arg5 harg5 arg6 harg6 hc0 x0 x1 x2 xo3 xo4 xo5)]
  unfold kernelRun0_B
  dsimp only
  sl_unfold_words
  refine (View.canon_unit_zero (S := S1x1) off_zero _ _).trans ?_
  simp only [View.readAt_eq_ld, Memref.IsWhole.read_unread, View.ld_unit_zero (S := S8192x256) off_zero,
    View.ld_unit_zero (S := S8192x1) off_zero, View.ld_unit_zero (S := S10x256) off_zero,
    View.ld_unit_zero (S := S1x1) off_zero, View.ld_unit_zero (S := S1x10) off_zero]

/-- The class sums after a later point. -/
theorem later_sums (c : Dev nD) (i : grid0.Coords)
    (arg1 : Memref sig .tc .vmem S8192x256 .f32) (harg1 : arg1.IsWhole)
    (arg2 : Memref sig .tc .vmem S8192x1 .i32) (harg2 : arg2.IsWhole)
    (arg3 : Memref sig .tc .vmem S10x256 .f32) (harg3 : arg3.IsWhole)
    (arg4 : Memref sig .tc .vmem S1x1 .f32) (harg4 : arg4.IsWhole)
    (arg5 : Memref sig .tc .vmem S10x256 .f32) (harg5 : arg5.IsWhole)
    (arg6 : Memref sig .tc .vmem S1x10 .f32) (harg6 : arg6.IsWhole) (hc0 : ¬cond0_0 i)
    (x0 : Vec F S8192x256 .f32) (x1 : Vec F S8192x1 .i32) (x2 : Vec F S10x256 .f32)
    (xo3 : Vec F S1x1 .f32) (xo4 : Vec F S10x256 .f32) (xo5 : Vec F S1x10 .f32) :
    out0_B_4 c i arg1 harg1 arg2 harg2 arg3 harg3 arg4 harg4 arg5 harg5 arg6 harg6 hc0 x0 x1 x2 xo3 xo4 xo5
      = k0_pay2 x0 (k0_pay7 x1) xo4 := by
  unfold out0_B_4
  rw [View.read_writes_eq_canon _ _ _
    (cover0_B_4 c i arg1 harg1 arg2 harg2 arg3 harg3 arg4 harg4 arg5 harg5 arg6 harg6 hc0 x0 x1 x2 xo3 xo4 xo5)]
  unfold kernelRun0_B
  dsimp only
  sl_unfold_words
  refine (View.canon_unit_zero (S := S10x256) off_zero _ _).trans ?_
  simp only [View.readAt_eq_ld, Memref.IsWhole.read_unread, View.ld_unit_zero (S := S8192x256) off_zero,
    View.ld_unit_zero (S := S8192x1) off_zero, View.ld_unit_zero (S := S10x256) off_zero,
    View.ld_unit_zero (S := S1x1) off_zero, View.ld_unit_zero (S := S1x10) off_zero]

/-- The class counts after a later point. -/
theorem later_counts (c : Dev nD) (i : grid0.Coords)
    (arg1 : Memref sig .tc .vmem S8192x256 .f32) (harg1 : arg1.IsWhole)
    (arg2 : Memref sig .tc .vmem S8192x1 .i32) (harg2 : arg2.IsWhole)
    (arg3 : Memref sig .tc .vmem S10x256 .f32) (harg3 : arg3.IsWhole)
    (arg4 : Memref sig .tc .vmem S1x1 .f32) (harg4 : arg4.IsWhole)
    (arg5 : Memref sig .tc .vmem S10x256 .f32) (harg5 : arg5.IsWhole)
    (arg6 : Memref sig .tc .vmem S1x10 .f32) (harg6 : arg6.IsWhole) (hc0 : ¬cond0_0 i)
    (x0 : Vec F S8192x256 .f32) (x1 : Vec F S8192x1 .i32) (x2 : Vec F S10x256 .f32)
    (xo3 : Vec F S1x1 .f32) (xo4 : Vec F S10x256 .f32) (xo5 : Vec F S1x10 .f32) :
    out0_B_5 c i arg1 harg1 arg2 harg2 arg3 harg3 arg4 harg4 arg5 harg5 arg6 harg6 hc0 x0 x1 x2 xo3 xo4 xo5
      = k0_pay3 (k0_pay7 x1) xo5 := by
  unfold out0_B_5
  rw [View.read_writes_eq_canon _ _ _
    (cover0_B_5 c i arg1 harg1 arg2 harg2 arg3 harg3 arg4 harg4 arg5 harg5 arg6 harg6 hc0 x0 x1 x2 xo3 xo4 xo5)]
  unfold kernelRun0_B
  dsimp only
  sl_unfold_words
  refine (View.canon_unit_zero (S := S1x10) off_zero _ _).trans ?_
  simp only [View.readAt_eq_ld, Memref.IsWhole.read_unread, View.ld_unit_zero (S := S8192x256) off_zero,
    View.ld_unit_zero (S := S8192x1) off_zero, View.ld_unit_zero (S := S10x256) off_zero,
    View.ld_unit_zero (S := S1x1) off_zero, View.ld_unit_zero (S := S1x10) off_zero]

end Cert.KernelIdeal.Pieces

end
-- ==== Proof.Matmuls.lean ====
/-
  The body's two matrix products, read at an index on the extended reals.

  * The cross terms of the distances: a [8192, 256] block of feature rows against the [10, 256] centers, contracting
    the 256 features of both. Entry (r, j) is Σ_k x r k · c j k.
  * The class sums: the [8192, 10] one-hot rows against the same [8192, 256] block, contracting the 8192 rows of both.
    Entry (j, k) is Σ_r h r j · x r k.
  Both accumulate into a zero block, so each entry is just the sum. What has to be checked is only which coordinate of
  each operand the contraction index moves and which one the output index fixes.
-/
import proofs.«430536_j62929860821403_3_alg».proof.Proof.Gen.KernelIdeal
import Idealize.ShloMosaic.PureOps.Ideal.Laws
import Idealize.ShloMosaic.Lib.ValueIdx

noncomputable section

namespace Cert.KernelIdeal.Matmuls

open Cert.KernelIdeal Cert.KernelIdeal.Gen Cert.KernelIdeal.Facts₀ Idealize.ShloMosaic Idealize.ShloMosaic.ValueIdx

/-! ## Distances: contract the features -/

theorem dist_lhs_0 (i : S8192x10.Idx) (q : dot_S8192x256_S10x256_S8192x10_1_1_0_0_n_n.contr.Idx) :
    (dot_S8192x256_S10x256_S8192x10_1_1_0_0_n_n.lhsIdx i q 0).val = (i 0).val := by
  unfold DotDims.lhsIdx
  rw [dif_neg (show ¬(0 : Fin S8192x256.rank) ∈ dot_S8192x256_S10x256_S8192x10_1_1_0_0_n_n.lhsBatch by decide), dif_pos (show (0 : Fin S8192x256.rank) ∈ dot_S8192x256_S10x256_S8192x10_1_1_0_0_n_n.lhsNonContracting by decide)]
  rfl
theorem dist_lhs_1 (i : S8192x10.Idx) (q : dot_S8192x256_S10x256_S8192x10_1_1_0_0_n_n.contr.Idx) :
    (dot_S8192x256_S10x256_S8192x10_1_1_0_0_n_n.lhsIdx i q 1).val = (q ⟨0, by decide⟩).val :=
  dot_S8192x256_S10x256_S8192x10_1_1_0_0_n_n.lhsIdx_val_of_single rfl i q
theorem dist_rhs_0 (i : S8192x10.Idx) (q : dot_S8192x256_S10x256_S8192x10_1_1_0_0_n_n.contr.Idx) :
    (dot_S8192x256_S10x256_S8192x10_1_1_0_0_n_n.rhsIdx i q 0).val = (i 1).val := by
  unfold DotDims.rhsIdx
  rw [dif_neg (show ¬(0 : Fin S10x256.rank) ∈ dot_S8192x256_S10x256_S8192x10_1_1_0_0_n_n.rhsBatch by decide), dif_pos (show (0 : Fin S10x256.rank) ∈ dot_S8192x256_S10x256_S8192x10_1_1_0_0_n_n.rhsNonContracting by decide)]
  rfl
theorem dist_rhs_1 (i : S8192x10.Idx) (q : dot_S8192x256_S10x256_S8192x10_1_1_0_0_n_n.contr.Idx) :
    (dot_S8192x256_S10x256_S8192x10_1_1_0_0_n_n.rhsIdx i q 1).val = (q ⟨0, by decide⟩).val :=
  dot_S8192x256_S10x256_S8192x10_1_1_0_0_n_n.rhsIdx_val_of_single rfl i q

/-- Entry (r, j) of the cross terms: the inner product of feature row r with center j. -/
theorem dist_apply (x : FVec Ideal S8192x256 .f32) (cn : FVec Ideal S10x256 .f32) (r : Fin 8192) (j : Fin 10) :
    matmul dot_S8192x256_S10x256_S8192x10_1_1_0_0_n_n none x cn (constant S8192x10 .f32 0x00000000#32) (ix2 r j)
      = ∑ k : Fin 256, x (ix2 r k) * cn (ix2 j k) := by
  simp only [matmul]
  rw [Ideal.matmul_constant_zero_apply, ← Equiv.sum_comp (contrEquiv1 dot_S8192x256_S10x256_S8192x10_1_1_0_0_n_n 256 rfl rfl).symm]
  refine Finset.sum_congr rfl fun k _ => ?_
  have hk := contrEquiv1_symm_val dot_S8192x256_S10x256_S8192x10_1_1_0_0_n_n 256 rfl rfl k
  have el : dot_S8192x256_S10x256_S8192x10_1_1_0_0_n_n.lhsIdx (ix2 r j) ((contrEquiv1 dot_S8192x256_S10x256_S8192x10_1_1_0_0_n_n 256 rfl rfl).symm k) = ix2 r k := funext fun a => Fin.ext (by
    match a with
    | ⟨0, _⟩ => exact dist_lhs_0 _ _
    | ⟨1, _⟩ => exact (dist_lhs_1 _ _).trans hk)
  have er : dot_S8192x256_S10x256_S8192x10_1_1_0_0_n_n.rhsIdx (ix2 r j) ((contrEquiv1 dot_S8192x256_S10x256_S8192x10_1_1_0_0_n_n 256 rfl rfl).symm k) = ix2 j k := funext fun a => Fin.ext (by
    match a with
    | ⟨0, _⟩ => exact dist_rhs_0 _ _
    | ⟨1, _⟩ => exact (dist_rhs_1 _ _).trans hk)
  rw [el, er]

/-! ## Class sums: contract the rows -/

theorem seg_lhs_0 (i : S10x256.Idx) (q : dot_S8192x10_S8192x256_S10x256_0_0_1_1_n_n.contr.Idx) :
    (dot_S8192x10_S8192x256_S10x256_0_0_1_1_n_n.lhsIdx i q 0).val = (q ⟨0, by decide⟩).val :=
  dot_S8192x10_S8192x256_S10x256_0_0_1_1_n_n.lhsIdx_val_of_single rfl i q
theorem seg_lhs_1 (i : S10x256.Idx) (q : dot_S8192x10_S8192x256_S10x256_0_0_1_1_n_n.contr.Idx) :
    (dot_S8192x10_S8192x256_S10x256_0_0_1_1_n_n.lhsIdx i q 1).val = (i 0).val := by
  unfold DotDims.lhsIdx
  rw [dif_neg (show ¬(1 : Fin S8192x10.rank) ∈ dot_S8192x10_S8192x256_S10x256_0_0_1_1_n_n.lhsBatch by decide), dif_pos (show (1 : Fin S8192x10.rank) ∈ dot_S8192x10_S8192x256_S10x256_0_0_1_1_n_n.lhsNonContracting by decide)]
  rfl
theorem seg_rhs_0 (i : S10x256.Idx) (q : dot_S8192x10_S8192x256_S10x256_0_0_1_1_n_n.contr.Idx) :
    (dot_S8192x10_S8192x256_S10x256_0_0_1_1_n_n.rhsIdx i q 0).val = (q ⟨0, by decide⟩).val :=
  dot_S8192x10_S8192x256_S10x256_0_0_1_1_n_n.rhsIdx_val_of_single rfl i q
theorem seg_rhs_1 (i : S10x256.Idx) (q : dot_S8192x10_S8192x256_S10x256_0_0_1_1_n_n.contr.Idx) :
    (dot_S8192x10_S8192x256_S10x256_0_0_1_1_n_n.rhsIdx i q 1).val = (i 1).val := by
  unfold DotDims.rhsIdx
  rw [dif_neg (show ¬(1 : Fin S8192x256.rank) ∈ dot_S8192x10_S8192x256_S10x256_0_0_1_1_n_n.rhsBatch by decide), dif_pos (show (1 : Fin S8192x256.rank) ∈ dot_S8192x10_S8192x256_S10x256_0_0_1_1_n_n.rhsNonContracting by decide)]
  rfl

/-- Entry (j, k) of the class sums of one block: the rows of the block weighted by column j of the one-hot rows. -/
theorem seg_apply (h : FVec Ideal S8192x10 .f32) (x : FVec Ideal S8192x256 .f32) (j : Fin 10) (k : Fin 256) :
    matmul dot_S8192x10_S8192x256_S10x256_0_0_1_1_n_n none h x (constant S10x256 .f32 0x00000000#32) (ix2 j k)
      = ∑ r : Fin 8192, h (ix2 r j) * x (ix2 r k) := by
  simp only [matmul]
  rw [Ideal.matmul_constant_zero_apply, ← Equiv.sum_comp (contrEquiv1 dot_S8192x10_S8192x256_S10x256_0_0_1_1_n_n 8192 rfl rfl).symm]
  refine Finset.sum_congr rfl fun r _ => ?_
  have hr := contrEquiv1_symm_val dot_S8192x10_S8192x256_S10x256_0_0_1_1_n_n 8192 rfl rfl r
  have el : dot_S8192x10_S8192x256_S10x256_0_0_1_1_n_n.lhsIdx (ix2 j k) ((contrEquiv1 dot_S8192x10_S8192x256_S10x256_0_0_1_1_n_n 8192 rfl rfl).symm r) = ix2 r j := funext fun a => Fin.ext (by
    match a with
    | ⟨0, _⟩ => exact (seg_lhs_0 _ _).trans hr
    | ⟨1, _⟩ => exact seg_lhs_1 _ _)
  have er : dot_S8192x10_S8192x256_S10x256_0_0_1_1_n_n.rhsIdx (ix2 j k) ((contrEquiv1 dot_S8192x10_S8192x256_S10x256_0_0_1_1_n_n 8192 rfl rfl).symm r) = ix2 r k := funext fun a => Fin.ext (by
    match a with
    | ⟨0, _⟩ => exact (seg_rhs_0 _ _).trans hr
    | ⟨1, _⟩ => exact seg_rhs_1 _ _)
  rw [el, er]

end Cert.KernelIdeal.Matmuls

end
-- ==== Proof.LibColumn.lean ====
/-
  A vector kept as a column: the two layout readings that go with a keep-dims reduction along the last axis.

  A sum along the last axis of an [a, b] array gives an [a] vector; kept as an [a, 1] column it reads, at (i, u), the
  vector at i; and that column broadcast back over b lanes reads, at (p, c), the column at (p, 0): constant along each row.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Spec.lean ====
/-
  The two losses as functions of the three argument arrays, on the extended reals.

  features X : [262144, 256], labels L : [262144] (32-bit words, read signed), centers Cn : [10, 256].

  * d2 n j   = max (|X n|² + |Cn j|² - 2 <X n, Cn j>, 0): the clamped squared distance of row n to center j, written as
               the three sums it is computed from (it is not expanded into Σ (X n k - Cn j k)²: neither program does).
  * ownD2 n  = Σ_j d2 n j · [label n = j]: the distance to the row's own center, picked by the indicator row of the
               label. It is total: for a label outside 0..9 the indicator row is zero and so is the sum.
  * intraSum = Σ_n clip (sqrt (ownD2 n)) with clip to [1e-16, 1e16]; the intra loss is intraSum / 262144.
  * segSum r k = Σ_n [label n = r] · X n k and cnt r = Σ_n [label n = r]: per-class feature sums and counts.
  * the inter loss: c2 r k = (Cn r k + segSum r k) / max (cnt r, 1); from the last pair of classes,
    1 / clip (2 · sqrt (max (Σ_k (c2 8 k - c2 9 k)², 0))).

  The float literals stay as their words (2.0, 1e-16, 1e16, 262144.0, 1.0, 0.0): both programs carry the same words in the
  same places, so a word is evaluated only where one side has a number instead: the zero that starts a host sum or that a
  reset stores (the real 0), and the 1.0 the reference adds once per row into the counts, where the kernel adds the
  converted compare bit (the real 1). The 1.0 under max (count, 1) stays a word on both sides.
-/
import Idealize.ShloMosaic.PureOps.Ideal
import Idealize.ShloMosaic.Lib.ValueIdx

noncomputable section

namespace Cert.Spec

open Idealize.ShloMosaic Idealize.ShloMosaic.ValueIdx

/-- features [262144, 256] -/
abbrev SX : Shape := ⟨2, ![262144, 256]⟩
/-- labels [262144] -/
abbrev SL : Shape := ⟨1, ![262144]⟩
/-- centers, and the per-class sums [10, 256] -/
abbrev SC : Shape := ⟨2, ![10, 256]⟩
/-- per-class counts [10] -/
abbrev SK : Shape := ⟨1, ![10]⟩

/-- 2.0 -/
abbrev two : EReal := Ideal.ofBits .f32 0x40000000#32
/-- 0.0 -/
abbrev zeroLit : EReal := Ideal.ofBits .f32 0x00000000#32
/-- 1.0 -/
abbrev oneLit : EReal := Ideal.ofBits .f32 0x3F800000#32
/-- 1e-16, the lower clip bound -/
abbrev lo : EReal := Ideal.ofBits .f32 0x24E69595#32
/-- 1e16, the upper clip bound -/
abbrev hi : EReal := Ideal.ofBits .f32 0x5A0E1BCA#32
/-- 262144.0, the batch size -/
abbrev batch : EReal := Ideal.ofBits .f32 0x48800000#32

/-- clip to [1e-16, 1e16]: the lower bound first, then the upper, each bound on the left as both programs have it. -/
def clip (x : EReal) : EReal := min hi (max lo x)

/-- "row n has label j": the label word, read signed, is j. -/
def labelIs (L : SL.Idx → BitVec 32) (n : Fin 262144) (j : Fin 10) : Prop := (L (ix1 n)).toInt = (j.val : Int)

instance (L : SL.Idx → BitVec 32) (n : Fin 262144) (j : Fin 10) : Decidable (labelIs L n j) := by
  unfold labelIs; infer_instance

/-- The indicator of "row n has label j", as an extended real. -/
def ind (L : SL.Idx → BitVec 32) (n : Fin 262144) (j : Fin 10) : EReal := if labelIs L n j then 1 else 0

/-- The clamped squared distance of row n to center j. -/
def d2 (X : SX.Idx → EReal) (Cn : SC.Idx → EReal) (n : Fin 262144) (j : Fin 10) : EReal :=
  max (((∑ k : Fin 256, X (ix2 n k) * X (ix2 n k)) + (∑ k : Fin 256, Cn (ix2 j k) * Cn (ix2 j k)))
        - two * (∑ k : Fin 256, X (ix2 n k) * Cn (ix2 j k))) zeroLit

/-- The squared distance of row n to its own center: the row of distances against the indicator row of its label. -/
def ownD2 (X : SX.Idx → EReal) (L : SL.Idx → BitVec 32) (Cn : SC.Idx → EReal) (n : Fin 262144) : EReal :=
  ∑ j : Fin 10, d2 X Cn n j * ind L n j

/-- The sum over the batch of the clipped own distances. -/
def intraSum (X : SX.Idx → EReal) (L : SL.Idx → BitVec 32) (Cn : SC.Idx → EReal) : EReal :=
  ∑ n : Fin 262144, clip (Ideal.sqrt (ownD2 X L Cn n))

/-- The intra loss: the mean over the batch. -/
def intra (X : SX.Idx → EReal) (L : SL.Idx → BitVec 32) (Cn : SC.Idx → EReal) : EReal :=
  Ideal.div (intraSum X L Cn) batch

/-- Per-class feature sums. -/
def segSum (X : SX.Idx → EReal) (L : SL.Idx → BitVec 32) (r : Fin 10) (k : Fin 256) : EReal :=
  ∑ n : Fin 262144, ind L n r * X (ix2 n k)

/-- Per-class counts. -/
def cnt (L : SL.Idx → BitVec 32) (r : Fin 10) : EReal := ∑ n : Fin 262144, ind L n r

/-- The updated center of class r: (center + class sum) / max (count, 1). -/
def c2 (Cn : SC.Idx → EReal) (sums : Fin 10 → Fin 256 → EReal) (counts : Fin 10 → EReal) (r : Fin 10) (k : Fin 256) : EReal :=
  Ideal.div (Cn (ix2 r k) + sums r k) (max (counts r) oneLit)

/-- The inter loss from per-class sums and counts: the reciprocal of the clipped doubled distance between the updated
    centers of the last two classes. -/
def interOf (Cn : SC.Idx → EReal) (sums : Fin 10 → Fin 256 → EReal) (counts : Fin 10 → EReal) : EReal :=
  Ideal.div oneLit (clip (two * Ideal.sqrt (max
    (∑ k : Fin 256, (c2 Cn sums counts 8 k - c2 Cn sums counts 9 k) * (c2 Cn sums counts 8 k - c2 Cn sums counts 9 k))
    zeroLit)))

/-- The inter loss of the three arguments. -/
def inter (X : SX.Idx → EReal) (L : SL.Idx → BitVec 32) (Cn : SC.Idx → EReal) : EReal :=
  interOf Cn (segSum X L) (cnt L)

end Cert.Spec

end
-- ==== Proof.OneHot.lean ====
/-
  Sums against a one-hot row, on the extended reals.

  The kernel never gathers: it multiplies each row of distances by the indicator row of that row's label and sums
  the row. On the extended reals a product with the indicator is the entry itself where the indicator is one and
  zero elsewhere (x * 0 = 0 for every extended real, the infinities included), so the row sum is the one entry at
  the label. The same law, read down a column, says that summing the rows of a matrix weighted by the indicator of
  "row r has label c" is the sum of the rows whose label is c. Nothing here needs the entries to be finite.
-/
import Mathlib.Data.EReal.Operations
import Mathlib.Algebra.BigOperators.Group.Finset.Piecewise
import Mathlib.Data.Fintype.BigOperators

open Finset

namespace Cert.OneHot

/-- A product with an indicator value: the entry where the condition holds, zero elsewhere. -/
theorem mul_indicator (x : EReal) (p : Prop) [Decidable p] :
    x * (if p then (1 : EReal) else 0) = if p then x else 0 := by
  split <;> simp

/-- The indicator on the left. -/
theorem indicator_mul (x : EReal) (p : Prop) [Decidable p] :
    (if p then (1 : EReal) else 0) * x = if p then x else 0 := by
  split <;> simp

/-- Summing a row against the indicator of one position picks the entry at that position. -/
theorem sum_mul_indicator_eq {n : Nat} (f : Fin n → EReal) (l : Fin n) :
    ∑ j : Fin n, f j * (if j = l then (1 : EReal) else 0) = f l := by
  simp only [mul_indicator, Finset.sum_ite_eq', Finset.mem_univ, if_true]

/-- Summing indicator-weighted terms is summing over the positions where the condition holds. -/
theorem sum_indicator_mul_eq_filter {ι : Type} [Fintype ι] (p : ι → Prop) [DecidablePred p] (g : ι → EReal) :
    ∑ r : ι, (if p r then (1 : EReal) else 0) * g r = ∑ r ∈ Finset.univ.filter p, g r := by
  simp only [indicator_mul, Finset.sum_filter]

end Cert.OneHot
-- ==== Proof.BlockValue.lean ====
/-
  One block of 8192 rows, on the extended reals: the body's arithmetic read at an index.

  For a block x of feature rows, its label column and the centers cn:
  * the one-hot rows: entry (r, j) is 1 when the label of row r, read signed, is j, and 0 otherwise. The body builds it
    by comparing the lane number with the label spread along the lanes, widening the compare bit and converting it;
  * the block's contribution to the running sum: Σ_r clip (sqrt (Σ_j d2 r j · onehot r j)) with
    d2 r j = max (|x r|² + |cn j|² - 2 <x r, cn j>, 0): the row norms are kept as a column and spread along the ten
    lanes, the center norms as a row spread down the rows, the cross terms come from a matrix product;
  * the block's contribution to the class sums, Σ_r onehot r j · x r k, and to the class counts, Σ_r onehot r j;
  * each of the three stores writes what the output block held plus the block's contribution.
  Every lane or sublane reduction is a plain finite sum here and every cast or broadcast only renames an index; nothing
  needs the entries to be finite.
-/
import proofs.«430536_j62929860821403_3_alg».proof.Proof.Gen.KernelIdeal.Skeleton
import proofs.«430536_j62929860821403_3_alg».proof.Proof.Matmuls
import proofs.«430536_j62929860821403_3_alg».proof.Proof.LibColumn
import proofs.«430536_j62929860821403_3_alg».proof.Proof.Spec
import proofs.«430536_j62929860821403_3_alg».proof.Proof.OneHot
import Idealize.ShloMosaic.PureOps.Ideal.Laws
import Idealize.ShloMosaic.Lib.Pipeline.Value
import Idealize.ShloMosaic.Lib.ValueIdx
import Idealize.ShloMosaic.Lib.ValueLayout
import Idealize.ShloMosaic.Lib.StableHlo.Predicate

noncomputable section

namespace Cert.KernelIdeal.BlockValue

open Cert.KernelIdeal Cert.KernelIdeal.Gen Cert.KernelIdeal.Facts₀ Cert.KernelIdeal.Facts
open Idealize.ShloMosaic Idealize.ShloMosaic.ValueIdx

/-- A 32-bit word is the word of the small number j exactly when it reads j, signed. -/
theorem word_eq_iff (w : BitVec 32) (j : Fin 10) : BitVec.ofNat 32 j.val = w ↔ w.toInt = (j.val : Int) := by
  have hj := j.isLt
  constructor
  · rintro rfl
    exact StableHlo.Predicate.toInt_ofNat_small j.val (by omega)
  · intro h
    apply BitVec.eq_of_toNat_eq
    have hw := w.isLt
    rw [BitVec.toInt_eq_toNat_cond] at h
    rw [BitVec.toNat_ofNat]
    split at h <;> omega

/-- A compare bit widened to 32 bits and read as a number is one when the bit is set and zero when it is not. -/
theorem bit_value (b : BitVec 1) : (((b.setWidth 32).toInt : ℝ) : EReal) = if b = 1#1 then 1 else 0 := by
  rcases (by revert b; decide : b = 0#1 ∨ b = 1#1) with rfl | rfl
  · rw [if_neg (by decide), show ((0#1 : BitVec 1).setWidth 32).toInt = 0 from by decide]; norm_num
  · rw [if_pos rfl, show ((1#1 : BitVec 1).setWidth 32).toInt = 1 from by decide]; norm_num

/-- The one-hot rows of a block: entry (r, j) is one when the label of row r is j and zero otherwise. -/
theorem onehot_apply (x1 : Vec Ideal S8192x1 .i32) (r : Fin 8192) (j : Fin 10) :
    k0_pay7 (F := Ideal) x1 (ix2 r j) = if (x1 (ix2 r 0)).toInt = (j.val : Int) then (1 : EReal) else 0 := by
  unfold k0_pay7
  dsimp only
  have hi : iota .tc S8192x10 32 [1] Gen.iota_S8192x10_d1_w32 (ix2 r j) = BitVec.ofNat 32 j.val :=
    iota_single_apply .tc S8192x10 32 1 Gen.iota_S8192x10_d1_w32 (ix2 r j)
  have hb : broadcastTo S8192x10 (shapeCast S8192x1 x1 Gen.shapeCasts_S8192x1_S8192x1) Gen.broadcasts_S8192x1_S8192x10 (ix2 r j)
      = x1 (ix2 r 0) :=
    (Cert.LibColumn.broadcastTo_a1_ab_apply _ Gen.broadcasts_S8192x1_S8192x10 r j).trans
      (congrFun (shapeCast_self x1 Gen.shapeCasts_S8192x1_S8192x1) _)
  show ((((IntOp.cmpi .eq (iota .tc S8192x10 32 [1] Gen.iota_S8192x10_d1_w32 (ix2 r j))
      (broadcastTo S8192x10 (shapeCast S8192x1 x1 Gen.shapeCasts_S8192x1_S8192x1) Gen.broadcasts_S8192x1_S8192x10 (ix2 r j))).setWidth 32).toInt : ℝ) : EReal) = _
  rw [hi, hb, bit_value]
  exact if_congr (StableHlo.Predicate.cmpi_eq_iff.trans (word_eq_iff _ _)) rfl rfl

/-! ## The three stores of a point, at an index -/

/-- The running sum: what the block held plus this block's sum. -/
theorem intra_store_apply (blk prev : FVec Ideal S1x1 .f32) :
    k0_pay1 (F := Ideal) blk (k0_pay9 prev) (ix2 0 0) = prev (ix2 0 0) + blk (ix2 0 0) := by
  unfold k0_pay1 k0_pay9
  dsimp only
  refine (addf_apply _ _ _).trans ?_
  exact congrArg (· + blk (ix2 0 0)) (congrFun (shapeCast_self prev Gen.shapeCasts_S1x1_S1x1) _)

/-- The class counts: what the row held plus, in column j, the sum of column j of the one-hot rows (for one-hot rows,
    the number of rows of the block with a one there). -/
theorem counts_apply (h : FVec Ideal S8192x10 .f32) (prev : Vec Ideal S1x10 .f32) (j : Fin 10) :
    k0_pay3 (F := Ideal) h prev (ix2 (0 : Fin 1) j) = prev (ix2 0 j) + ∑ r : Fin 8192, h (ix2 r j) := by
  unfold k0_pay3
  dsimp only
  refine (addf_apply _ _ _).trans ?_
  refine congrArg₂ (· + ·) (congrFun (shapeCast_self prev Gen.shapeCasts_S1x10_S1x10) _) ?_
  refine (shapeCast_a_1a_apply _ Gen.shapeCasts_S10_S1x10 0 j).trans ?_
  refine (Ideal.multiReduction_add_single h _ Gen.reduces_S8192x10_S10 _ _ (ix1 j)).trans ?_
  refine Finset.sum_congr rfl fun r _ => ?_
  exact congrArg h (funext fun a => Fin.ext (by match a with | ⟨0, _⟩ => rfl | ⟨1, _⟩ => rfl))

/-- The class sums: what the block held plus, at (j, k), feature k of the block's rows weighted by column j of the
    one-hot rows. -/
theorem sums_apply (x : Vec Ideal S8192x256 .f32) (h : FVec Ideal S8192x10 .f32) (prev : Vec Ideal S10x256 .f32)
    (j : Fin 10) (k : Fin 256) :
    k0_pay2 (F := Ideal) x h prev (ix2 j k) = prev (ix2 j k) + ∑ r : Fin 8192, h (ix2 r j) * x (ix2 r k) := by
  unfold k0_pay2
  refine (addf_apply _ _ _).trans ?_
  exact congrArg₂ (· + ·) (congrFun (shapeCast_self prev Gen.shapeCasts_S10x256_S10x256) _)
    (Cert.KernelIdeal.Matmuls.seg_apply h x j k)

/-! ## A block's sum of clipped own distances -/

/-- The clamped squared distance of row r of a block to center j, from the block's rows and the centers. -/
def d2blk (x : Vec Ideal S8192x256 .f32) (cn : Vec Ideal S10x256 .f32) (r : Fin 8192) (j : Fin 10) : EReal :=
  max (((∑ k : Fin 256, x (ix2 r k) * x (ix2 r k)) + (∑ k : Fin 256, cn (ix2 j k) * cn (ix2 j k)))
        - Cert.Spec.two * (∑ k : Fin 256, x (ix2 r k) * cn (ix2 j k))) Cert.Spec.zeroLit

/-- The squared norm of row r of the block: the sum along the last axis of the squares. -/
theorem rowsq_8192 (x : Vec Ideal S8192x256 .f32) (hφ : FKind.Formats .f32)
    (hacc : (0x00000000#32 : BitVec 32) = FKind.add.neutral .f32 hφ) (r : Fin 8192) :
    multiReduction (F := Ideal) .add [1] S8192 (mulf (F := Ideal) x x) (0x00000000#32) Gen.reduces_S8192x256_S8192 hφ hacc (ix1 r)
      = ∑ k : Fin 256, x (ix2 r k) * x (ix2 r k) := by
  refine (Ideal.multiReduction_add_single (mulf (F := Ideal) x x) _ Gen.reduces_S8192x256_S8192 hφ hacc (ix1 r)).trans ?_
  refine Finset.sum_congr rfl fun k _ => ?_
  have e : (Gen.reduces_S8192x256_S8192).lift (ix1 r) k = ix2 r k :=
    funext fun a => Fin.ext (by match a with | ⟨0, _⟩ => rfl | ⟨1, _⟩ => rfl)
  rw [e]; rfl

/-- The squared norm of center j. -/
theorem rowsq_10 (cn : Vec Ideal S10x256 .f32) (hφ : FKind.Formats .f32)
    (hacc : (0x00000000#32 : BitVec 32) = FKind.add.neutral .f32 hφ) (j : Fin 10) :
    multiReduction (F := Ideal) .add [1] S10 (mulf (F := Ideal) cn cn) (0x00000000#32) Gen.reduces_S10x256_S10 hφ hacc (ix1 j)
      = ∑ k : Fin 256, cn (ix2 j k) * cn (ix2 j k) := by
  refine (Ideal.multiReduction_add_single (mulf (F := Ideal) cn cn) _ Gen.reduces_S10x256_S10 hφ hacc (ix1 j)).trans ?_
  refine Finset.sum_congr rfl fun k _ => ?_
  have e : (Gen.reduces_S10x256_S10).lift (ix1 j) k = ix2 j k :=
    funext fun a => Fin.ext (by match a with | ⟨0, _⟩ => rfl | ⟨1, _⟩ => rfl)
  rw [e]; rfl

/-- The distance entry from its three ingredients: the row norms kept as a column and spread along the ten lanes, the
    center norms kept as a row and spread down the rows, and the cross terms; |x|² + |c|² - 2 <x, c>, clamped at zero. -/
theorem d2_entry (a : FVec Ideal S8192 .f32) (b : FVec Ideal S10 .f32) (d : FVec Ideal S8192x10 .f32) (r : Fin 8192) (j : Fin 10) :
    maximumf (F := Ideal)
      (subf (F := Ideal)
        (addf (F := Ideal)
          (broadcastTo S8192x10 (shapeCast S8192x1 a Gen.shapeCasts_S8192_S8192x1) Gen.broadcasts_S8192x1_S8192x10)
          (broadcastTo S8192x10 (shapeCast S1x10 b Gen.shapeCasts_S10_S1x10) Gen.broadcasts_S1x10_S8192x10))
        (mulf (F := Ideal) (broadcast S8192x10 (FloatOps.ofBits (F := Ideal) .f32 0x40000000#32)) d))
      (broadcast S8192x10 (FloatOps.ofBits (F := Ideal) .f32 0x00000000#32)) (ix2 r j)
    = max ((a (ix1 r) + b (ix1 j)) - Cert.Spec.two * d (ix2 r j)) Cert.Spec.zeroLit := by
  have ha : broadcastTo S8192x10 (shapeCast S8192x1 a Gen.shapeCasts_S8192_S8192x1) Gen.broadcasts_S8192x1_S8192x10 (ix2 r j) = a (ix1 r) :=
    (Cert.LibColumn.broadcastTo_a1_ab_apply _ Gen.broadcasts_S8192x1_S8192x10 r j).trans
      (Cert.LibColumn.shapeCast_a_a1_apply a Gen.shapeCasts_S8192_S8192x1 r 0)
  have hb : broadcastTo S8192x10 (shapeCast S1x10 b Gen.shapeCasts_S10_S1x10) Gen.broadcasts_S1x10_S8192x10 (ix2 r j) = b (ix1 j) :=
    (broadcastTo_1b_ab_apply _ Gen.broadcasts_S1x10_S8192x10 r j).trans
      (shapeCast_a_1a_apply b Gen.shapeCasts_S10_S1x10 0 j)
  refine (maximumf_apply _ _ _).trans ?_
  refine congrArg (max · Cert.Spec.zeroLit) ?_
  refine (subf_apply _ _ _).trans ?_
  refine congrArg₂ (· - ·) ?_ rfl
  refine (addf_apply _ _ _).trans ?_
  rw [ha, hb]

/-- The block's contribution to the running sum: over its 8192 rows, the clipped square root of the row of distances
    summed against the row's one-hot row. -/
theorem block_intra_apply (x : Vec Ideal S8192x256 .f32) (x1 : Vec Ideal S8192x1 .i32) (cn : Vec Ideal S10x256 .f32) :
    k0_pay8 (F := Ideal) x x1 cn (ix2 0 0)
      = ∑ r : Fin 8192, Cert.Spec.clip (Ideal.sqrt (∑ j : Fin 10, d2blk x cn r j * k0_pay7 (F := Ideal) x1 (ix2 r j))) := by
  unfold k0_pay8
  dsimp only
  refine (shapeCast_a_1a_apply _ Gen.shapeCasts_S1_S1x1 0 0).trans ?_
  refine (Ideal.multiReduction_add_single _ _ Gen.reduces_S8192x1_S1 _ _ (ix1 0)).trans ?_
  refine Finset.sum_congr rfl fun r _ => ?_
  have e1 : (Gen.reduces_S8192x1_S1).lift (ix1 (0 : Fin 1)) r = ix2 r (0 : Fin 1) :=
    funext fun a => Fin.ext (by match a with | ⟨0, _⟩ => rfl | ⟨1, _⟩ => rfl)
  rw [e1]
  -- the clip and the square root act entry by entry
  refine (minimumf_apply _ _ _).trans ?_
  refine congrArg (min Cert.Spec.hi) ?_
  refine (maximumf_apply _ _ _).trans ?_
  refine congrArg (max Cert.Spec.lo) ?_
  refine congrArg Ideal.sqrt ?_
  -- the own squared distance: the column entry is the lane sum of the weighted distances
  refine (Cert.LibColumn.shapeCast_a_a1_apply _ Gen.shapeCasts_S8192_S8192x1 r 0).trans ?_
  refine (Ideal.multiReduction_add_single _ _ Gen.reduces_S8192x10_S8192 _ _ (ix1 r)).trans ?_
  refine Finset.sum_congr rfl fun j _ => ?_
  have e2 : (Gen.reduces_S8192x10_S8192).lift (ix1 r) j = ix2 r j :=
    funext fun a => Fin.ext (by match a with | ⟨0, _⟩ => rfl | ⟨1, _⟩ => rfl)
  rw [e2]
  refine (mulf_apply _ _ _).trans ?_
  refine congrArg (· * k0_pay7 (F := Ideal) x1 (ix2 r j)) ?_
  refine (d2_entry _ _ _ r j).trans ?_
  unfold d2blk
  refine congrArg (max · Cert.Spec.zeroLit) ?_
  refine congrArg₂ (· - ·) (congrArg₂ (· + ·) (rowsq_8192 x _ _ r) (rowsq_10 cn _ _ j)) ?_
  exact congrArg (Cert.Spec.two * ·) (Cert.KernelIdeal.Matmuls.dist_apply x cn r j)

end Cert.KernelIdeal.BlockValue

end
-- ==== Proof.BlockSum.lean ====
/-
  A sum over the 262144 rows, taken 8192 rows at a time.

  The grid has 32 points; point t handles rows 8192 t, ..., 8192 t + 8191. A running total that adds, at each point, that
  block's terms holds after point t the sum over the rows below 8192 (t + 1): the total after the first point is the first
  block's sum, each later point adds its own block, and after the last point (t = 31) every row has been counted.
  Addition on the extended reals is commutative and associative, so no finiteness is needed.
-/
import Mathlib.Data.EReal.Operations
import Mathlib.Algebra.BigOperators.Intervals
import Mathlib.Data.Fintype.BigOperators

open Finset

noncomputable section

namespace Cert.BlockSum

/-- Row r of block t, as a row of the whole batch. -/
def rowOf (t : Fin 32) (r : Fin 8192) : Fin 262144 := ⟨8192 * t.val + r.val, by have := t.isLt; have := r.isLt; omega⟩

@[simp] theorem rowOf_val (t : Fin 32) (r : Fin 8192) : (rowOf t r).val = 8192 * t.val + r.val := rfl

/-- The sum of the terms of the rows handled by points 0, ..., t. -/
def upTo (g : Fin 262144 → EReal) (t : Nat) : EReal := ∑ n ∈ univ.filter (fun n : Fin 262144 => n.val < 8192 * (t + 1)), g n

/-- The sum of block t's terms. -/
def block (g : Fin 262144 → EReal) (t : Fin 32) : EReal := ∑ r : Fin 8192, g (rowOf t r)

/-- The rows of block t are exactly the rows from 8192 t up to, not including, 8192 (t + 1). -/
theorem block_eq_filter (g : Fin 262144 → EReal) (t : Fin 32) :
    block g t = ∑ n ∈ univ.filter (fun n : Fin 262144 => 8192 * t.val ≤ n.val ∧ n.val < 8192 * (t.val + 1)), g n := by
  unfold block
  refine Finset.sum_bij (fun r _ => rowOf t r) ?_ ?_ ?_ ?_
  · intro r _
    simp only [mem_filter, mem_univ, true_and, rowOf_val]
    have := r.isLt; omega
  · intro a _ b _ h
    have := congrArg Fin.val h
    simp only [rowOf_val] at this
    exact Fin.ext (by omega)
  · intro n hn
    simp only [mem_filter, mem_univ, true_and] at hn
    exact ⟨⟨n.val - 8192 * t.val, by omega⟩, mem_univ _, Fin.ext (by simp only [rowOf_val]; omega)⟩
  · intro r _; rfl

/-- After the first point the total is the first block's sum. -/
theorem upTo_zero (g : Fin 262144 → EReal) : upTo g 0 = block g 0 := by
  rw [block_eq_filter]
  unfold upTo
  refine Finset.sum_congr (Finset.filter_congr fun n _ => ?_) fun _ _ => rfl
  simp

/-- Each later point adds its own block. -/
theorem upTo_succ (g : Fin 262144 → EReal) (t : Fin 32) (ht : 0 < t.val) :
    upTo g t.val = upTo g (t.val - 1) + block g t := by
  rw [block_eq_filter]
  unfold upTo
  rw [← Finset.sum_union]
  · refine Finset.sum_congr ?_ fun _ _ => rfl
    ext n
    simp only [mem_filter, mem_univ, true_and, mem_union]
    omega
  · rw [Finset.disjoint_filter]
    intro n _ h1 h2
    omega

/-- After the last point every row has been counted. -/
theorem upTo_last (g : Fin 262144 → EReal) : upTo g 31 = ∑ n : Fin 262144, g n := by
  unfold upTo
  refine Finset.sum_congr ?_ fun _ _ => rfl
  ext n
  simp only [mem_filter, mem_univ, true_and, iff_true]
  have := n.isLt; omega

end Cert.BlockSum

end
-- ==== Proof.BlockRows.lean ====
/-
  A block's contributions, in terms of the rows of the whole batch.

  Block t holds rows 8192 t + r of the features and of the labels, and all of the centers. With that said of a block's
  entries, its one-hot rows are the indicator rows of the batch's labels, its distances are the batch's distances, and
  its three contributions are block t's share of the three sums over the batch: the clipped own distances, the
  indicator-weighted feature rows, and the indicators themselves.
-/
import proofs.«430536_j62929860821403_3_alg».proof.Proof.BlockValue
import proofs.«430536_j62929860821403_3_alg».proof.Proof.BlockSum

noncomputable section

namespace Cert.KernelIdeal.BlockRows

open Cert.KernelIdeal Cert.KernelIdeal.Gen Cert.KernelIdeal.BlockValue Cert.BlockSum
open Idealize.ShloMosaic Idealize.ShloMosaic.ValueIdx

variable (X : Cert.Spec.SX.Idx → EReal) (L : Cert.Spec.SL.Idx → BitVec 32) (Cn : Cert.Spec.SC.Idx → EReal)
variable (xb : Vec Ideal S8192x256 .f32) (lb : Vec Ideal S8192x1 .i32) (cb : Vec Ideal S10x256 .f32) (t : Fin 32)
variable (hx : ∀ (r : Fin 8192) (k : Fin 256), xb (ix2 r k) = X (ix2 (rowOf t r) k))
variable (hl : ∀ r : Fin 8192, lb (ix2 r 0) = L (ix1 (rowOf t r)))
variable (hc : ∀ (j : Fin 10) (k : Fin 256), cb (ix2 j k) = Cn (ix2 j k))

/-- Row n's term of the running sum: its clipped own distance. -/
def ownTerm (n : Fin 262144) : EReal := Cert.Spec.clip (Ideal.sqrt (Cert.Spec.ownD2 X L Cn n))
/-- Row n's term of class sum (j, k): feature k of the row when its label is j, zero otherwise. -/
def sumTerm (j : Fin 10) (k : Fin 256) (n : Fin 262144) : EReal := Cert.Spec.ind L n j * X (ix2 n k)
/-- Row n's term of class count j: one when its label is j, zero otherwise. -/
def cntTerm (j : Fin 10) (n : Fin 262144) : EReal := Cert.Spec.ind L n j

include hl in
/-- The block's one-hot rows are the indicator rows of the batch's labels. -/
theorem onehot_eq_ind (r : Fin 8192) (j : Fin 10) : k0_pay7 (F := Ideal) lb (ix2 r j) = Cert.Spec.ind L (rowOf t r) j := by
  rw [onehot_apply, hl r]
  rfl

include hx hc in
/-- The block's distances are the batch's. -/
theorem d2blk_eq (r : Fin 8192) (j : Fin 10) : d2blk xb cb r j = Cert.Spec.d2 X Cn (rowOf t r) j := by
  unfold d2blk Cert.Spec.d2
  simp only [hx, hc]

include hx hl hc in
/-- The block's sum of clipped own distances is block t's share of the batch's. -/
theorem block_intra_eq : k0_pay8 (F := Ideal) xb lb cb (ix2 0 0) = block (ownTerm X L Cn) t := by
  rw [block_intra_apply]
  unfold block ownTerm Cert.Spec.ownD2
  refine Finset.sum_congr rfl fun r _ => ?_
  refine congrArg (fun z => Cert.Spec.clip (Ideal.sqrt z)) ?_
  refine Finset.sum_congr rfl fun j _ => ?_
  rw [d2blk_eq X Cn xb cb t hx hc r j, onehot_eq_ind L lb t hl r j]

include hx hl in
/-- The class sums after the block: what was there plus block t's share. -/
theorem block_sums_eq (prev : Vec Ideal S10x256 .f32) (j : Fin 10) (k : Fin 256) :
    k0_pay2 (F := Ideal) xb (k0_pay7 (F := Ideal) lb) prev (ix2 j k) = prev (ix2 j k) + block (sumTerm X L j k) t := by
  rw [sums_apply]
  unfold block sumTerm
  refine congrArg (prev (ix2 j k) + ·) (Finset.sum_congr rfl fun r _ => ?_)
  rw [onehot_eq_ind L lb t hl r j, hx r k]

include hl in
/-- The class counts after the block: what was there plus block t's share. -/
theorem block_counts_eq (prev : Vec Ideal S1x10 .f32) (j : Fin 10) :
    k0_pay3 (F := Ideal) (k0_pay7 (F := Ideal) lb) prev (ix2 (0 : Fin 1) j) = prev (ix2 0 j) + block (cntTerm L j) t := by
  rw [counts_apply]
  unfold block cntTerm
  refine congrArg (prev (ix2 0 j) + ·) (Finset.sum_congr rfl fun r _ => ?_)
  exact onehot_eq_ind L lb t hl r j

end Cert.KernelIdeal.BlockRows

end
-- ==== Proof.Invariant.lean ====
/-
  What the three output blocks hold after each grid point.

  The first point resets the three blocks to zero and adds the first block of rows; every later point adds its own block
  of rows to what the point before left (the blocks are not written back in between). So after point n the running
  sum is the sum of the clipped own distances of the rows below 8192 (n + 1), the class-sum block holds, at (j, k), the
  indicator-weighted feature k of those rows, and the count row holds, at j, the number of those rows whose label is j.
  By induction on the point: zero plus the first block's share is the total up to the first point, and the total up to
  the point before plus this block's share is the total up to this point.
-/
import proofs.«430536_j62929860821403_3_alg».proof.Proof.Pieces
import proofs.«430536_j62929860821403_3_alg».proof.Proof.BlockRows

set_option maxRecDepth 16384

noncomputable section

namespace Cert.KernelIdeal.Invariant

open Cert.KernelIdeal Cert.KernelIdeal.Gen Cert.KernelIdeal.BlockValue Cert.KernelIdeal.BlockRows Cert.BlockSum
open Idealize.ShloMosaic Idealize.ShloMosaic.TcCoe Idealize.ShloMosaic.ValueIdx
open Idealize.SL Idealize.SL.Sem

variable (m : (ℓ : Loc nD τ sig) → Buf (Elt Ideal) ℓ) (c : Dev nD)

/-- The block of feature rows point t reads. -/
abbrev fblk (t : Fin cfg0.N) : Vec Ideal S8192x256 .f32 := iblk m c 0 t
/-- The column of labels point t reads. -/
abbrev lblk (t : Fin cfg0.N) : Vec Ideal S8192x1 .i32 := iblk m c 1 t
/-- The centers, which every point reads whole. -/
abbrev cblk (t : Fin cfg0.N) : Vec Ideal S10x256 .f32 := iblk m c 2 t

/-- A grid point as one of the 32 blocks of rows. -/
def pt (t : Fin cfg0.N) : Fin 32 := ⟨t.val, lt_of_lt_of_eq t.isLt (show cfg0.N = 32 from N_0)⟩

variable (X : Cert.Spec.SX.Idx → EReal) (L : Cert.Spec.SL.Idx → BitVec 32) (Cn : Cert.Spec.SC.Idx → EReal)
variable (hI0 : ∀ (t : Fin cfg0.N) (r : Fin 8192) (k : Fin 256), fblk m c t (ix2 r k) = X (ix2 (rowOf (pt t) r) k))
variable (hI1 : ∀ (t : Fin cfg0.N) (r : Fin 8192), lblk m c t (ix2 r 0) = L (ix1 (rowOf (pt t) r)))
variable (hI2 : ∀ (t : Fin cfg0.N) (j : Fin 10) (k : Fin 256), cblk m c t (ix2 j k) = Cn (ix2 j k))

/-- The zero a reset stores, at the one entry of the running sum. -/
theorem zero_intra : k0_pay4 (F := Ideal) (ix2 0 0) = 0 := Ideal.ofBits_zero_f32
/-- The zeros a reset stores in the class sums. -/
theorem zero_sums (j : Fin 10) (k : Fin 256) : k0_pay5 (F := Ideal) (ix2 j k) = 0 := Ideal.ofBits_zero_f32
/-- The zeros a reset stores in the class counts. -/
theorem zero_counts (j : Fin 10) : k0_pay6 (F := Ideal) (ix2 0 j) = 0 := Ideal.ofBits_zero_f32

include hI0 hI1 hI2 in
/-- After point n the three blocks hold the three totals over the rows below 8192 (n + 1). -/
theorem totals : ∀ (n : ℕ) (hn : n < cfg0.N),
    (outsAt0 m c n hn).1 (ix2 0 0) = upTo (ownTerm X L Cn) n
    ∧ (∀ (j : Fin 10) (k : Fin 256), (outsAt0 m c n hn).2.1 (ix2 j k) = upTo (sumTerm X L j k) n)
    ∧ (∀ j : Fin 10, (outsAt0 m c n hn).2.2 (ix2 0 j) = upTo (cntTerm L j) n) := by
  intro n
  induction n with
  | zero =>
    intro hn
    have hA := outsAt0_A m c ⟨0, hn⟩ (Nat.zero_mod 32)
    have hc0 : cond0_0 (grid0.coords (⟨0, hn⟩ : Fin cfg0.N)) := (hcond0_0 ⟨0, hn⟩).mpr (Nat.zero_mod 32)
    have e0 : pt (⟨0, hn⟩ : Fin cfg0.N) = (0 : Fin 32) := rfl
    rw [show outsAt0 m c 0 hn = _ from hA]
    dsimp only
    refine ⟨?_, fun j k => ?_, fun j => ?_⟩
    · -- the running sum: zero, plus the first block's share
      refine (congrFun (Cert.KernelIdeal.Pieces.first_intra (F := Ideal) c (grid0.coords ⟨0, hn⟩)
        (ms0_0 ⟨0, hn⟩) (hs0_0 ⟨0, hn⟩) (ms0_1 ⟨0, hn⟩) (hs0_1 ⟨0, hn⟩) (ms0_2 ⟨0, hn⟩) (hs0_2 ⟨0, hn⟩)
        (ms0_3 ⟨0, hn⟩) (hs0_3 ⟨0, hn⟩) (ms0_4 ⟨0, hn⟩) (hs0_4 ⟨0, hn⟩) (ms0_5 ⟨0, hn⟩) (hs0_5 ⟨0, hn⟩) hc0
        (fblk m c ⟨0, hn⟩) (lblk m c ⟨0, hn⟩) (cblk m c ⟨0, hn⟩)) (ix2 0 0)).trans ?_
      refine (intra_store_apply _ _).trans ?_
      rw [zero_intra, zero_add, upTo_zero,
        block_intra_eq X L Cn (fblk m c ⟨0, hn⟩) (lblk m c ⟨0, hn⟩) (cblk m c ⟨0, hn⟩) (pt ⟨0, hn⟩)
          (hI0 ⟨0, hn⟩) (hI1 ⟨0, hn⟩) (hI2 ⟨0, hn⟩), e0]
    · -- the class sums
      refine (congrFun (Cert.KernelIdeal.Pieces.first_sums (F := Ideal) c (grid0.coords ⟨0, hn⟩)
        (ms0_0 ⟨0, hn⟩) (hs0_0 ⟨0, hn⟩) (ms0_1 ⟨0, hn⟩) (hs0_1 ⟨0, hn⟩) (ms0_2 ⟨0, hn⟩) (hs0_2 ⟨0, hn⟩)
        (ms0_3 ⟨0, hn⟩) (hs0_3 ⟨0, hn⟩) (ms0_4 ⟨0, hn⟩) (hs0_4 ⟨0, hn⟩) (ms0_5 ⟨0, hn⟩) (hs0_5 ⟨0, hn⟩) hc0
        (fblk m c ⟨0, hn⟩) (lblk m c ⟨0, hn⟩) (cblk m c ⟨0, hn⟩)) (ix2 j k)).trans ?_
      rw [block_sums_eq X L (fblk m c ⟨0, hn⟩) (lblk m c ⟨0, hn⟩) (pt ⟨0, hn⟩) (hI0 ⟨0, hn⟩) (hI1 ⟨0, hn⟩),
        zero_sums, zero_add, upTo_zero, e0]
    · -- the class counts
      refine (congrFun (Cert.KernelIdeal.Pieces.first_counts (F := Ideal) c (grid0.coords ⟨0, hn⟩)
        (ms0_0 ⟨0, hn⟩) (hs0_0 ⟨0, hn⟩) (ms0_1 ⟨0, hn⟩) (hs0_1 ⟨0, hn⟩) (ms0_2 ⟨0, hn⟩) (hs0_2 ⟨0, hn⟩)
        (ms0_3 ⟨0, hn⟩) (hs0_3 ⟨0, hn⟩) (ms0_4 ⟨0, hn⟩) (hs0_4 ⟨0, hn⟩) (ms0_5 ⟨0, hn⟩) (hs0_5 ⟨0, hn⟩) hc0
        (fblk m c ⟨0, hn⟩) (lblk m c ⟨0, hn⟩) (cblk m c ⟨0, hn⟩)) (ix2 0 j)).trans ?_
      rw [block_counts_eq L (lblk m c ⟨0, hn⟩) (pt ⟨0, hn⟩) (hI1 ⟨0, hn⟩), zero_counts, zero_add, upTo_zero, e0]
  | succ n ih =>
    intro hn
    have hN : n + 1 < 32 := lt_of_lt_of_eq hn (show cfg0.N = 32 from N_0)
    have h0 : ¬ (n + 1) % 32 = 0 := by omega
    have hB := outsAt0_B m c ⟨n + 1, hn⟩ h0
    have hc0 : ¬cond0_0 (grid0.coords (⟨n + 1, hn⟩ : Fin cfg0.N)) := fun h => h0 ((hcond0_0 ⟨n + 1, hn⟩).mp h)
    obtain ⟨ih3, ih4, ih5⟩ := ih (Nat.lt_of_succ_lt hn)
    have hs : ∀ g : Fin 262144 → EReal, upTo g (n + 1) = upTo g n + block g (pt ⟨n + 1, hn⟩) := fun g =>
      upTo_succ g (pt ⟨n + 1, hn⟩) (Nat.succ_pos n)
    rw [show outsAt0 m c (n + 1) hn = _ from hB]
    dsimp only
    refine ⟨?_, fun j k => ?_, fun j => ?_⟩
    · -- the running sum: what the point before left, plus this block's share
      refine (congrFun (Cert.KernelIdeal.Pieces.later_intra (F := Ideal) c (grid0.coords ⟨n + 1, hn⟩)
        (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) hc0
        (fblk m c ⟨n + 1, hn⟩) (lblk m c ⟨n + 1, hn⟩) (cblk m c ⟨n + 1, hn⟩) _ _ _) (ix2 0 0)).trans ?_
      refine (intra_store_apply _ _).trans ?_
      rw [hs, block_intra_eq X L Cn (fblk m c ⟨n + 1, hn⟩) (lblk m c ⟨n + 1, hn⟩) (cblk m c ⟨n + 1, hn⟩) (pt ⟨n + 1, hn⟩)
        (hI0 _) (hI1 _) (hI2 _)]
      exact congrArg (· + _) ih3
    · -- the class sums
      refine (congrFun (Cert.KernelIdeal.Pieces.later_sums (F := Ideal) c (grid0.coords ⟨n + 1, hn⟩)
        (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) hc0
        (fblk m c ⟨n + 1, hn⟩) (lblk m c ⟨n + 1, hn⟩) (cblk m c ⟨n + 1, hn⟩) _ _ _) (ix2 j k)).trans ?_
      rw [block_sums_eq X L (fblk m c ⟨n + 1, hn⟩) (lblk m c ⟨n + 1, hn⟩) (pt ⟨n + 1, hn⟩) (hI0 _) (hI1 _), hs]
      exact congrArg (· + _) (ih4 j k)
    · -- the class counts
      refine (congrFun (Cert.KernelIdeal.Pieces.later_counts (F := Ideal) c (grid0.coords ⟨n + 1, hn⟩)
        (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩)
        (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) hc0
        (fblk m c ⟨n + 1, hn⟩) (lblk m c ⟨n + 1, hn⟩) (cblk m c ⟨n + 1, hn⟩) _ _ _) (ix2 0 j)).trans ?_
      rw [block_counts_eq L (lblk m c ⟨n + 1, hn⟩) (pt ⟨n + 1, hn⟩) (hI1 _), hs]
      exact congrArg (· + _) (ih5 j)

end Cert.KernelIdeal.Invariant

end
-- ==== Proof.InputBlocks.lean ====
/-
  The input blocks as rows of the arguments.

  The grid has 32 points. At point t the first window holds rows 8192 t, ..., 8192 t + 8191 of the features (all 256
  columns), the second the same rows of the labels kept as a column, and the third the whole array of centers at every
  point. A block's coordinate along an axis is always the block index times the block's extent plus the coordinate
  inside the block; the block indices are (t, 0), (t, 0) and (0, 0), checked once over the 32 points.

  The labels reach the region as a [262144, 1] column that a reshape made of the [262144] argument before the region;
  a reshape that only adds a unit axis reads, at (n, 0), the vector at n.
-/
import proofs.«430536_j62929860821403_3_alg».proof.Proof.Gen.KernelIdeal.Frame
import proofs.«430536_j62929860821403_3_alg».proof.Proof.BlockSum
import proofs.«430536_j62929860821403_3_alg».proof.Proof.LibColumn
import Idealize.ShloMosaic.Lib.Pipeline.Value
import Idealize.ShloMosaic.Lib.ValueIdx

set_option maxRecDepth 16384

noncomputable section

namespace Cert.InputBlocks

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- A grid point as the number of its block of rows. -/
def pt (t : Fin cfg0.N) : Fin 32 := ⟨t.val, by have h : cfg0.N = 32 := N_0; have := t.isLt; omega⟩

@[simp] theorem pt_val (t : Fin cfg0.N) : (pt t).val = t.val := rfl

/-! ## The block indices, over the 32 points -/

/-- The features' block at point t is block (t, 0). -/
theorem idx_facts0 : ∀ t : Fin cfg0.N, win0_0.index t (0 : Fin 2) = t.val ∧ win0_0.index t (1 : Fin 2) = 0 :=
  (by decide +kernel : ∀ t : Fin grid0.N, _)

/-- The label column's block at point t is block (t, 0). -/
theorem idx_facts1 : ∀ t : Fin cfg0.N, win0_1.index t (0 : Fin 2) = t.val ∧ win0_1.index t (1 : Fin 2) = 0 :=
  (by decide +kernel : ∀ t : Fin grid0.N, _)

/-- The centers' block is block (0, 0) at every point. -/
theorem idx_facts2 : ∀ t : Fin cfg0.N, win0_2.index t (0 : Fin 2) = 0 ∧ win0_2.index t (1 : Fin 2) = 0 :=
  (by decide +kernel : ∀ t : Fin grid0.N, _)

/-! ## The features -/

/-- The features' block at point t, at (r, k), is the features at row 8192 t + r, column k. -/
theorem feat_apply (c : Dev nD) (t : Fin cfg0.N) (r : Fin 8192) (k : Fin 256) :
    (iblk m c 0 t : Vec F S8192x256 .f32) (ix2 r k)
      = (m ((c : Thread nD τ).loc main_arg0) : S262144x256.Idx → Elt F .f32) (ix2 (Cert.BlockSum.rowOf (pt t) r) k) := by
  obtain ⟨h0, h1⟩ := idx_facts0 t
  unfold iblk
  rw [View.read_apply]
  show V m c main_arg0 _ = _
  rw [V_main_arg0]
  congr 1
  funext a
  apply Fin.ext
  match a with
  | ⟨0, _⟩ =>
    show win0_0.index t 0 * 8192 + 1 * r.val = 8192 * t.val + r.val
    rw [h0]; omega
  | ⟨1, _⟩ =>
    show win0_0.index t 1 * 256 + 1 * k.val = k.val
    rw [h1]; omega

/-! ## The labels -/

/-- The label column as the region finds it: the label vector with a unit axis added. -/
theorem label_column (c : Dev nD) :
    (V m c main_v0 : S262144x1.Idx → BitVec 32)
      = fun i => shapeCast S262144x1 (m ((c : Thread nD τ).loc main_arg1) : S262144.Idx → BitVec 32) shapeCasts_S262144_S262144x1 i := by
  show StableHlo.after hostOps0 (fun b => m (c, b)) (Proc.devRef .tc main_v0) = _
  after_results
  rfl

/-- The label column's block at point t, at (r, 0), is the label of row 8192 t + r. -/
theorem label_apply (c : Dev nD) (t : Fin cfg0.N) (r : Fin 8192) :
    (iblk m c 1 t : Vec F S8192x1 .i32) (ix2 r 0)
      = (m ((c : Thread nD τ).loc main_arg1) : S262144.Idx → BitVec 32) (ix1 (Cert.BlockSum.rowOf (pt t) r)) := by
  obtain ⟨h0, h1⟩ := idx_facts1 t
  have hemb : ((cfg0.win 1).blk t).view.emb (ix2 r (0 : Fin 1)) = (ix2 (Cert.BlockSum.rowOf (pt t) r) (0 : Fin 1) : S262144x1.Idx) := by
    funext a
    apply Fin.ext
    match a with
    | ⟨0, _⟩ =>
      show win0_1.index t 0 * 8192 + 1 * r.val = 8192 * t.val + r.val
      rw [h0]; omega
    | ⟨1, _⟩ =>
      show win0_1.index t 1 * 1 + 1 * 0 = 0
      rw [h1]
  unfold iblk
  rw [View.read_apply]
  show V m c main_v0 _ = _
  rw [hemb, label_column]
  exact Cert.LibColumn.shapeCast_a_a1_apply _ shapeCasts_S262144_S262144x1 (Cert.BlockSum.rowOf (pt t) r) 0

/-! ## The centers -/

/-- The centers' block is the whole array of centers, at every point. -/
theorem centers_eq (c : Dev nD) (t : Fin cfg0.N) :
    (iblk m c 2 t : Vec F S10x256 .f32) = m ((c : Thread nD τ).loc main_arg2) := by
  obtain ⟨h0, h1⟩ := idx_facts2 t
  funext x
  unfold iblk
  rw [View.read_apply]
  show V m c main_arg2 _ = _
  rw [V_main_arg2]
  congr 1
  funext a
  apply Fin.ext
  match a with
  | ⟨0, _⟩ =>
    show win0_2.index t 0 * 10 + 1 * (x 0).val = (x 0).val
    rw [h0]; omega
  | ⟨1, _⟩ =>
    show win0_2.index t 1 * 256 + 1 * (x 1).val = (x 1).val
    rw [h1]; omega

end Cert.InputBlocks

end
-- ==== Proof.FinalArrays.lean ====
/-
  The three output arrays after the region.

  Each of the three outputs has one block, which is its whole array ([1, 1], [10, 256], [1, 10]); the block index is
  (0, 0) at every point of the grid, so the block is carried from point to point and written back once, after the
  last point (point 31 of 32). A block at index (0, 0) with the array's own extents, read through zero offsets, is the
  array; and since that one write-back covers every index, the array ends holding exactly what the last point left
  in the block.
-/
import proofs.«430536_j62929860821403_3_alg».proof.Proof.Gen.KernelIdeal.Frame
import Idealize.ShloMosaic.Lib.Pipeline.Value

set_option maxRecDepth 16384

noncomputable section

namespace Cert.FinalArrays

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- Point 31 is a point of the grid. -/
theorem h31 : 31 < cfg0.N := by have h : cfg0.N = 32 := N_0; omega

/-- The last point. -/
def tLast : Fin cfg0.N := ⟨31, h31⟩

/-- What the blocks hold after a point whose number is 31 is what they hold after point 31. -/
theorem outsAt_last (c : Dev nD) (n : ℕ) (h : n < cfg0.N) (e : n = 31) : outsAt0 m c n h = outsAt0 m c 31 h31 := by
  subst e; rfl

/-! ## Output 3: the [1, 1] running sum -/

/-- Its block index is (0, 0) and its block has the array's extents, at every point. -/
theorem blk3 : ∀ t : Fin cfg0.N, win0_3.index t (0 : Fin 2) = 0 ∧ win0_3.index t (1 : Fin 2) = 0
    ∧ win0_3.xsize (grid0.coords t) (0 : Fin 2) = 1 ∧ win0_3.xsize (grid0.coords t) (1 : Fin 2) = 1 :=
  (by decide +kernel : ∀ t : Fin grid0.N, _)

/-- So its block covers the array, at every point. -/
theorem mem_blk3 (t : Fin cfg0.N) (i : S1x1.Idx) : i ∈ ((cfg0.win 3).blk t).view.set := by
  obtain ⟨i0, i1, x0, x1⟩ := blk3 t
  show i ∈ ((View.whole main_v1_0).slice (win0_3.rect t)).set
  rw [View.set_slice_whole, Rect.mem_set_unit]
  intro a
  have h0 : (i 0 : Nat) < 1 := (i 0).isLt
  have h1 : (i 1 : Nat) < 1 := (i 1).isLt
  match a with
  | ⟨0, _⟩ =>
    show win0_3.index t 0 * win0_3.size 0 ≤ (i 0 : Nat)
      ∧ (i 0 : Nat) < win0_3.index t 0 * win0_3.size 0 + win0_3.xsize (grid0.coords t) 0
    rw [i0, x0]; omega
  | ⟨1, _⟩ =>
    show win0_3.index t 1 * win0_3.size 1 ≤ (i 1 : Nat)
      ∧ (i 1 : Nat) < win0_3.index t 1 * win0_3.size 1 + win0_3.xsize (grid0.coords t) 1
    rw [i1, x1]; omega

/-- What the last point leaves in the block, as contents of the array. -/
abbrev lastIntra (c : Dev nD) : Buf (Elt F) ((c : Thread nD τ).loc main_v1_0) := (outsAt0 m c 31 h31).1

/-- The one write-back, at the last point, writes that: block (0, 0) read through zero offsets is the array. -/
theorem flushed3 (c : Dev nD) (t : Fin cfg0.N) (hf : (cfg0.win 3).flush t = true) :
    (dats m 0 c).flushed 3 t = ((cfg0.win 3).blk t).view.read (Elt F) (lastIntra m c) := by
  have hN : cfg0.N = 32 := N_0
  have ht : t.val = 31 := by have := (flush0_3 t).mp hf; have := t.isLt; omega
  obtain ⟨i0, i1, -, -⟩ := blk3 t
  show (cfg0.win 3).cut (grid0.coords t) ((dats m 0 c).after 3 t) = _
  rw [after0_3, outsAt_last m c t.val t.isLt ht]
  have hz : (fun a => win0_3.index t a * main_v1_0.ty.shape.size a) = fun _ => 0 := funext fun a => by
    match a with
    | ⟨0, _⟩ => show win0_3.index t 0 * _ = 0; rw [i0, Nat.zero_mul]
    | ⟨1, _⟩ => show win0_3.index t 1 * _ = 0; rw [i1, Nat.zero_mul]
  exact (Memref.read_access_unit_zero (Elt F) main_v1_0 hz (fun a => by rw [congrFun hz a]; simp) (lastIntra m c)).symm

/-- So the array ends holding what the last point left. -/
theorem final3 (c : Dev nD) : (dats m 0 c).arrAt 3 cfg0.N = lastIntra m c :=
  (dats m 0 c).arrAt_eq_of_cover 3 (lastIntra m c) (flushed3 m c) fun i =>
    ⟨tLast, (flush0_3 tLast).mpr rfl, mem_blk3 tLast i⟩

/-! ## Output 4: the [10, 256] class sums -/

/-- Its block index is (0, 0) and its block has the array's extents, at every point. -/
theorem blk4 : ∀ t : Fin cfg0.N, win0_4.index t (0 : Fin 2) = 0 ∧ win0_4.index t (1 : Fin 2) = 0
    ∧ win0_4.xsize (grid0.coords t) (0 : Fin 2) = 10 ∧ win0_4.xsize (grid0.coords t) (1 : Fin 2) = 256 :=
  (by decide +kernel : ∀ t : Fin grid0.N, _)

/-- So its block covers the array, at every point. -/
theorem mem_blk4 (t : Fin cfg0.N) (i : S10x256.Idx) : i ∈ ((cfg0.win 4).blk t).view.set := by
  obtain ⟨i0, i1, x0, x1⟩ := blk4 t
  show i ∈ ((View.whole main_v1_1).slice (win0_4.rect t)).set
  rw [View.set_slice_whole, Rect.mem_set_unit]
  intro a
  have h0 : (i 0 : Nat) < 10 := (i 0).isLt
  have h1 : (i 1 : Nat) < 256 := (i 1).isLt
  match a with
  | ⟨0, _⟩ =>
    show win0_4.index t 0 * win0_4.size 0 ≤ (i 0 : Nat)
      ∧ (i 0 : Nat) < win0_4.index t 0 * win0_4.size 0 + win0_4.xsize (grid0.coords t) 0
    rw [i0, x0]; omega
  | ⟨1, _⟩ =>
    show win0_4.index t 1 * win0_4.size 1 ≤ (i 1 : Nat)
      ∧ (i 1 : Nat) < win0_4.index t 1 * win0_4.size 1 + win0_4.xsize (grid0.coords t) 1
    rw [i1, x1]; omega

/-- What the last point leaves in the block, as contents of the array. -/
abbrev lastSums (c : Dev nD) : Buf (Elt F) ((c : Thread nD τ).loc main_v1_1) := (outsAt0 m c 31 h31).2.1

/-- The one write-back, at the last point, writes that: block (0, 0) read through zero offsets is the array. -/
theorem flushed4 (c : Dev nD) (t : Fin cfg0.N) (hf : (cfg0.win 4).flush t = true) :
    (dats m 0 c).flushed 4 t = ((cfg0.win 4).blk t).view.read (Elt F) (lastSums m c) := by
  have hN : cfg0.N = 32 := N_0
  have ht : t.val = 31 := by have := (flush0_4 t).mp hf; have := t.isLt; omega
  obtain ⟨i0, i1, -, -⟩ := blk4 t
  show (cfg0.win 4).cut (grid0.coords t) ((dats m 0 c).after 4 t) = _
  rw [after0_4, outsAt_last m c t.val t.isLt ht]
  have hz : (fun a => win0_4.index t a * main_v1_1.ty.shape.size a) = fun _ => 0 := funext fun a => by
    match a with
    | ⟨0, _⟩ => show win0_4.index t 0 * _ = 0; rw [i0, Nat.zero_mul]
    | ⟨1, _⟩ => show win0_4.index t 1 * _ = 0; rw [i1, Nat.zero_mul]
  exact (Memref.read_access_unit_zero (Elt F) main_v1_1 hz (fun a => by rw [congrFun hz a]; simp) (lastSums m c)).symm

/-- So the array ends holding what the last point left. -/
theorem final4 (c : Dev nD) : (dats m 0 c).arrAt 4 cfg0.N = lastSums m c :=
  (dats m 0 c).arrAt_eq_of_cover 4 (lastSums m c) (flushed4 m c) fun i =>
    ⟨tLast, (flush0_4 tLast).mpr rfl, mem_blk4 tLast i⟩

/-! ## Output 5: the [1, 10] class counts -/

/-- Its block index is (0, 0) and its block has the array's extents, at every point. -/
theorem blk5 : ∀ t : Fin cfg0.N, win0_5.index t (0 : Fin 2) = 0 ∧ win0_5.index t (1 : Fin 2) = 0
    ∧ win0_5.xsize (grid0.coords t) (0 : Fin 2) = 1 ∧ win0_5.xsize (grid0.coords t) (1 : Fin 2) = 10 :=
  (by decide +kernel : ∀ t : Fin grid0.N, _)

/-- So its block covers the array, at every point. -/
theorem mem_blk5 (t : Fin cfg0.N) (i : S1x10.Idx) : i ∈ ((cfg0.win 5).blk t).view.set := by
  obtain ⟨i0, i1, x0, x1⟩ := blk5 t
  show i ∈ ((View.whole main_v1_2).slice (win0_5.rect t)).set
  rw [View.set_slice_whole, Rect.mem_set_unit]
  intro a
  have h0 : (i 0 : Nat) < 1 := (i 0).isLt
  have h1 : (i 1 : Nat) < 10 := (i 1).isLt
  match a with
  | ⟨0, _⟩ =>
    show win0_5.index t 0 * win0_5.size 0 ≤ (i 0 : Nat)
      ∧ (i 0 : Nat) < win0_5.index t 0 * win0_5.size 0 + win0_5.xsize (grid0.coords t) 0
    rw [i0, x0]; omega
  | ⟨1, _⟩ =>
    show win0_5.index t 1 * win0_5.size 1 ≤ (i 1 : Nat)
      ∧ (i 1 : Nat) < win0_5.index t 1 * win0_5.size 1 + win0_5.xsize (grid0.coords t) 1
    rw [i1, x1]; omega

/-- What the last point leaves in the block, as contents of the array. -/
abbrev lastCounts (c : Dev nD) : Buf (Elt F) ((c : Thread nD τ).loc main_v1_2) := (outsAt0 m c 31 h31).2.2

/-- The one write-back, at the last point, writes that: block (0, 0) read through zero offsets is the array. -/
theorem flushed5 (c : Dev nD) (t : Fin cfg0.N) (hf : (cfg0.win 5).flush t = true) :
    (dats m 0 c).flushed 5 t = ((cfg0.win 5).blk t).view.read (Elt F) (lastCounts m c) := by
  have hN : cfg0.N = 32 := N_0
  have ht : t.val = 31 := by have := (flush0_5 t).mp hf; have := t.isLt; omega
  obtain ⟨i0, i1, -, -⟩ := blk5 t
  show (cfg0.win 5).cut (grid0.coords t) ((dats m 0 c).after 5 t) = _
  rw [after0_5, outsAt_last m c t.val t.isLt ht]
  have hz : (fun a => win0_5.index t a * main_v1_2.ty.shape.size a) = fun _ => 0 := funext fun a => by
    match a with
    | ⟨0, _⟩ => show win0_5.index t 0 * _ = 0; rw [i0, Nat.zero_mul]
    | ⟨1, _⟩ => show win0_5.index t 1 * _ = 0; rw [i1, Nat.zero_mul]
  exact (Memref.read_access_unit_zero (Elt F) main_v1_2 hz (fun a => by rw [congrFun hz a]; simp) (lastCounts m c)).symm

/-- So the array ends holding what the last point left. -/
theorem final5 (c : Dev nD) : (dats m 0 c).arrAt 5 cfg0.N = lastCounts m c :=
  (dats m 0 c).arrAt_eq_of_cover 5 (lastCounts m c) (flushed5 m c) fun i =>
    ⟨tLast, (flush0_5 tLast).mpr rfl, mem_blk5 tLast i⟩

/-! ## The three arrays after the region -/

theorem final_intra (c : Dev nD) : (dats m 0 c).arrAt 3 cfg0.N = (outsAt0 m c 31 h31).1 := final3 m c
theorem final_sums (c : Dev nD) : (dats m 0 c).arrAt 4 cfg0.N = (outsAt0 m c 31 h31).2.1 := final4 m c
theorem final_counts (c : Dev nD) : (dats m 0 c).arrAt 5 cfg0.N = (outsAt0 m c 31 h31).2.2 := final5 m c

end Cert.FinalArrays

end
-- ==== Proof.HostTail.lean ====
/-
  The host operations after the region, read as functions of what the region leaves.

  The region ends with three arrays: a [1, 1] running sum, the [10, 256] per-class feature sums and the [1, 10]
  per-class counts. The lines after it compute the two results from them and from the centers:

  * the first result divides the running sum's one entry by the batch size;
  * the second adds the class sums to the centers, divides each row by max (count, 1) (the counts reshaped to a
    vector, the maximum broadcast back along the columns), takes rows 8 and 9, sums the squares of their
    difference over the 256 columns from the zero word, clamps at zero, takes the root, doubles it, clips it
    between the two bounds (the lower bound first, each bound on the left) and divides one by the result.

  Each is first named as one term of the arrays, then read at its one index: a reshape that only drops or adds a
  unit axis reads the same entry, a broadcast reads the coordinate it keeps, a row slice reads the row it starts at,
  and the host's sum from the zero word is the plain sum. Nothing here needs an entry to be finite.
-/
import proofs.«430536_j62929860821403_3_alg».proof.Proof.Gen.KernelIdeal.Frame
import proofs.«430536_j62929860821403_3_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.HostTail

open Cert.KernelIdeal Cert.KernelIdeal.Gen
open Idealize.ShloMosaic Idealize.ShloMosaic.TcCoe Idealize.ShloMosaic.ValueIdx Idealize.SL.Sem

/-! ## The two results as terms of the arrays -/

/-- The first result: the running sum's entry over the batch size. -/
def intraTerm (A3 : S1x1.Idx → EReal) : S_.Idx → EReal :=
  Host.divf (F := Ideal) (φ := .f32) (fun i => shapeCast S_ A3 shapeCasts_S1x1_S_ i) (constant S_ .f32 0x48800000#32)

/-- max (count, 1), per class. -/
def denom (A5 : S1x10.Idx → EReal) : S10.Idx → EReal :=
  maximumf (F := Ideal) (φ := .f32) (fun i => shapeCast S10 A5 shapeCasts_S1x10_S10 i)
    (broadcastInDim S10 ![] bcast_S_S10 (constant S_ .f32 0x3F800000#32))

/-- The updated centers: (centers + class sums), each row over its max (count, 1). -/
def newCenters (Cn A4 : S10x256.Idx → EReal) (A5 : S1x10.Idx → EReal) : S10x256.Idx → EReal :=
  Host.divf (F := Ideal) (φ := .f32) (addf Cn A4)
    (broadcastInDim S10x256 ![0, 1] bcast_S10x1_S10x256_0_1 (broadcastInDim S10x1 ![0] bcast_S10_S10x1_0 (denom A5)))

/-- Rows 8 and 9 of a [10, 256] array, as vectors. -/
def row8 (Y : S10x256.Idx → EReal) : S256.Idx → EReal :=
  fun i => shapeCast S256 (extractStridedSlice S1x256 ![8, 0] Y slices_S10x256_S1x256_8_0) shapeCasts_S1x256_S256 i
def row9 (Y : S10x256.Idx → EReal) : S256.Idx → EReal :=
  fun i => shapeCast S256 (extractStridedSlice S1x256 ![9, 0] Y slices_S10x256_S1x256_9_0) shapeCasts_S1x256_S256 i

/-- The sum of the squared differences of rows 8 and 9, as the host sums it. -/
def sqDist (Y : S10x256.Idx → EReal) : S_.Idx → EReal :=
  Host.reduceAdd (F := Ideal) (φ := .f32) (mulf (subf (row8 Y) (row9 Y)) (subf (row8 Y) (row9 Y)))
    (constant S_ .f32 0x00000000#32) reducesTo_S256_S_d0 h_S_

/-- The second result. -/
def interTerm (Cn A4 : S10x256.Idx → EReal) (A5 : S1x10.Idx → EReal) : S_.Idx → EReal :=
  Host.divf (F := Ideal) (φ := .f32) (broadcastInDim S_ ![] bcast_S_S_ (constant S_ .f32 0x3F800000#32))
    (minimumf (constant S_ .f32 0x5A0E1BCA#32) (maximumf (constant S_ .f32 0x24E69595#32)
      (mulf (constant S_ .f32 0x40000000#32)
        (Host.sqrt (maximumf (sqDist (newCenters Cn A4 A5)) (constant S_ .f32 0x00000000#32))))))

/-! ## The terms read at their one index -/

/-- A sum over the indices of a vector is the sum over its positions. -/
theorem sum_vecIdx {n : Nat} (f : (⟨1, ![n]⟩ : Shape).Idx → EReal) : ∑ j, f j = ∑ k : Fin n, f (ix1 k) :=
  (Equiv.sum_comp (⟨ix1, fun j => j 0, fun _ => rfl, fun j => (eq_ix1 j).symm⟩ : Fin n ≃ (⟨1, ![n]⟩ : Shape).Idx) f).symm

/-- The first result is the running sum's one entry over the batch size. -/
theorem intraTerm_eq (A3 : S1x1.Idx → EReal) :
    intraTerm A3 = fun _ => Ideal.div (A3 (ix2 0 0)) Cert.Spec.batch := by
  funext i
  show Ideal.div (shapeCast S_ A3 shapeCasts_S1x1_S_ i) (Ideal.ofBits .f32 0x48800000#32) = _
  rw [shapeCast_apply A3 shapeCasts_S1x1_S_ i (ix2 0 0) (by
    have h1 := (S1x1.rowMajor (ix2 0 0)).isLt
    have h2 := (S_.rowMajor i).isLt
    have e1 : S1x1.numel = 1 := by decide
    have e2 : S_.numel = 1 := by decide
    omega)]

/-- max (count, 1) of class r. -/
theorem denom_apply (A5 : S1x10.Idx → EReal) (r : Fin 10) :
    denom A5 (ix1 r) = max (A5 (ix2 0 r)) Cert.Spec.oneLit := by
  show max (shapeCast S10 A5 shapeCasts_S1x10_S10 (ix1 r)) (Ideal.ofBits .f32 0x3F800000#32) = _
  rw [shapeCast_1a_a_apply]

/-- The updated center of class r at column k. -/
theorem newCenters_apply (Cn A4 : S10x256.Idx → EReal) (A5 : S1x10.Idx → EReal) (r : Fin 10) (k : Fin 256) :
    newCenters Cn A4 A5 (ix2 r k) = Cert.Spec.c2 Cn (fun r k => A4 (ix2 r k)) (fun r => A5 (ix2 0 r)) r k := by
  show Ideal.div (Cn (ix2 r k) + A4 (ix2 r k))
    (broadcastInDim S10x256 ![0, 1] bcast_S10x1_S10x256_0_1 (broadcastInDim S10x1 ![0] bcast_S10_S10x1_0 (denom A5)) (ix2 r k)) = _
  rw [broadcastInDim_apply ![0, 1] bcast_S10x1_S10x256_0_1 _ (ix2 r k) (ix2 r 0)
        (by intro a; match a with | ⟨0, _⟩ => rfl | ⟨1, _⟩ => rfl),
      broadcastInDim_apply ![0] bcast_S10_S10x1_0 _ (ix2 r 0) (ix1 r) (by intro a; match a with | ⟨0, _⟩ => rfl),
      denom_apply]
  rfl

/-- Row 8 as a vector reads row 8. -/
theorem row8_apply (Y : S10x256.Idx → EReal) (k : Fin 256) : row8 Y (ix1 k) = Y (ix2 8 k) := by
  show shapeCast S256 (extractStridedSlice S1x256 ![8, 0] Y slices_S10x256_S1x256_8_0) shapeCasts_S1x256_S256 (ix1 k) = _
  rw [shapeCast_1a_a_apply, slice2_axis0_apply 8 Y slices_S10x256_S1x256_8_0 0 k 8 rfl]

/-- Row 9 as a vector reads row 9. -/
theorem row9_apply (Y : S10x256.Idx → EReal) (k : Fin 256) : row9 Y (ix1 k) = Y (ix2 9 k) := by
  show shapeCast S256 (extractStridedSlice S1x256 ![9, 0] Y slices_S10x256_S1x256_9_0) shapeCasts_S1x256_S256 (ix1 k) = _
  rw [shapeCast_1a_a_apply, slice2_axis0_apply 9 Y slices_S10x256_S1x256_9_0 0 k 9 rfl]

/-- The host's sum from the zero word is the plain sum of the squared differences over the columns. -/
theorem sqDist_apply (Y : S10x256.Idx → EReal) (i : S_.Idx) :
    sqDist Y i = ∑ k : Fin 256, (Y (ix2 8 k) - Y (ix2 9 k)) * (Y (ix2 8 k) - Y (ix2 9 k)) := by
  unfold sqDist
  simp only [Host.reduceAdd, Ideal.hostReduceAdd_def]
  rw [Ideal.hostReduceAdd_total reducesTo_S256_S_d0 (fun b => b.elim0) _ _ i]
  show Ideal.ofBits .f32 0x00000000#32 + _ = _
  rw [Ideal.ofBits_zero_f32, zero_add, sum_vecIdx]
  refine Finset.sum_congr rfl fun k _ => ?_
  show (row8 Y (ix1 k) - row9 Y (ix1 k)) * (row8 Y (ix1 k) - row9 Y (ix1 k)) = _
  rw [row8_apply, row9_apply]

/-- The second result is the inter loss of the centers, the class sums and the class counts. -/
theorem interTerm_eq (Cn A4 : S10x256.Idx → EReal) (A5 : S1x10.Idx → EReal) :
    interTerm Cn A4 A5 = fun _ => Cert.Spec.interOf Cn (fun r k => A4 (ix2 r k)) (fun r => A5 (ix2 0 r)) := by
  funext i
  show Ideal.div (Ideal.ofBits .f32 0x3F800000#32) (min (Ideal.ofBits .f32 0x5A0E1BCA#32) (max (Ideal.ofBits .f32 0x24E69595#32)
    (Ideal.ofBits .f32 0x40000000#32 * Ideal.sqrt (max (sqDist (newCenters Cn A4 A5) i) (Ideal.ofBits .f32 0x00000000#32))))) = _
  rw [sqDist_apply]
  simp only [newCenters_apply]
  rfl

/-! ## The tail's results are these terms of what the region leaves -/

variable (m : (ℓ : Loc nD τ sig) → Buf (Elt Ideal) ℓ)

theorem tail_v3_term (c : Dev nD) :
    Pipeline.afterTail₀ cfgs (dats m) 0 (V0 m) [hostOps1, hostOps1_1, hostOps1_2] c main_v3
      = intraTerm (Pipeline.withArrays (cfgs 0).spec c (V0 m c) (fun w => (dats m 0 c).arrAt w (cfgs 0).N) (Proc.devRef .tc main_v1_0)) := by
  unfold Pipeline.afterTail₀
  simp only [Gen.hostOps1, Gen.hostOps1_1, Gen.hostOps1_2, List.flatten_cons, List.flatten_nil, List.append_nil, List.cons_append, List.nil_append]
  after_results_simp
  rfl

theorem tail_v23_term (c : Dev nD) :
    Pipeline.afterTail₀ cfgs (dats m) 0 (V0 m) [hostOps1, hostOps1_1, hostOps1_2] c main_v23
      = interTerm (Pipeline.withArrays (cfgs 0).spec c (V0 m c) (fun w => (dats m 0 c).arrAt w (cfgs 0).N) (Proc.devRef .tc main_arg2))
          (Pipeline.withArrays (cfgs 0).spec c (V0 m c) (fun w => (dats m 0 c).arrAt w (cfgs 0).N) (Proc.devRef .tc main_v1_1))
          (Pipeline.withArrays (cfgs 0).spec c (V0 m c) (fun w => (dats m 0 c).arrAt w (cfgs 0).N) (Proc.devRef .tc main_v1_2)) := by
  unfold Pipeline.afterTail₀
  simp only [Gen.hostOps1, Gen.hostOps1_1, Gen.hostOps1_2, List.flatten_cons, List.flatten_nil, List.append_nil, List.cons_append, List.nil_append]
  after_results_simp
  rfl

/-! ## The two results, from the three output arrays after the region -/

/-- Whatever the region leaves in its three output arrays, the first result is the [1, 1] array's entry over the batch
    size, and the second is the inter loss of the launch centers (the third argument, which nothing writes), the
    [10, 256] array as the class sums and the [1, 10] array's row as the class counts. -/
theorem tail_results (c : Dev nD) (A3 : S1x1.Idx → EReal) (A4 : S10x256.Idx → EReal) (A5 : S1x10.Idx → EReal)
    (h3 : (dats m 0 c).arrAt 3 cfg0.N = A3) (h4 : (dats m 0 c).arrAt 4 cfg0.N = A4) (h5 : (dats m 0 c).arrAt 5 cfg0.N = A5) :
    Pipeline.afterTail₀ cfgs (dats m) 0 (V0 m) [hostOps1, hostOps1_1, hostOps1_2] c main_v3
        = (fun _ => Ideal.div (A3 (ix2 0 0)) Cert.Spec.batch : S_.Idx → EReal)
    ∧ Pipeline.afterTail₀ cfgs (dats m) 0 (V0 m) [hostOps1, hostOps1_1, hostOps1_2] c main_v23
        = (fun _ => Cert.Spec.interOf (m ((c : Thread nD τ).loc main_arg2)) (fun r k => A4 (ix2 r k)) (fun r => A5 (ix2 0 r)) :
            S_.Idx → EReal) := by
  -- the region's arrays, as the lines after it find them
  have e3 : Pipeline.withArrays (cfgs 0).spec c (V0 m c) (fun w => (dats m 0 c).arrAt w (cfgs 0).N) (Proc.devRef .tc main_v1_0) = A3 :=
    (Pipeline.withArrays_arr spec0 launch0.win.arr_inj c _ _ 3).trans h3
  have e4 : Pipeline.withArrays (cfgs 0).spec c (V0 m c) (fun w => (dats m 0 c).arrAt w (cfgs 0).N) (Proc.devRef .tc main_v1_1) = A4 :=
    (Pipeline.withArrays_arr spec0 launch0.win.arr_inj c _ _ 4).trans h4
  have e5 : Pipeline.withArrays (cfgs 0).spec c (V0 m c) (fun w => (dats m 0 c).arrAt w (cfgs 0).N) (Proc.devRef .tc main_v1_2) = A5 :=
    (Pipeline.withArrays_arr spec0 launch0.win.arr_inj c _ _ 5).trans h5
  -- the centers are an input window's array: the region leaves them as launched
  have e2 : Pipeline.withArrays (cfgs 0).spec c (V0 m c) (fun w => (dats m 0 c).arrAt w (cfgs 0).N) (Proc.devRef .tc main_arg2)
      = m ((c : Thread nD τ).loc main_arg2) :=
    (Pipeline.withArrays_arr spec0 launch0.win.arr_inj c _ _ 2).trans
      (((dats m 0 c).arrAt_in 2 rfl _).trans ((A_eq m c 2).trans (V_main_arg2 m c)))
  refine ⟨?_, ?_⟩
  · rw [tail_v3_term, e3, intraTerm_eq]
  · rw [tail_v23_term, e2, e4, e5, interTerm_eq]

end Cert.HostTail

end
-- ==== Proof.KernelRun.lean ====
/-
  The idealized kernel's run: its two scalar results as functions of its three arguments.

  After the last grid point the three output blocks hold the three totals over all 262144 rows (the totals up to the
  last point are the sums over every row); each block is its whole array and is written back once, at the last point; and
  the host operations after the region divide the running sum by the batch size and turn the class sums and counts into
  the reciprocal of the clipped doubled distance between the last two updated centers. So the first result is the intra
  loss and the second the inter loss of the specification, and the arguments end as they began.
-/
import proofs.«430536_j62929860821403_3_alg».proof.Proof.Invariant
import proofs.«430536_j62929860821403_3_alg».proof.Proof.InputBlocks
import proofs.«430536_j62929860821403_3_alg».proof.Proof.FinalArrays
import proofs.«430536_j62929860821403_3_alg».proof.Proof.HostTail

set_option maxRecDepth 16384

noncomputable section

namespace Cert.KernelIdeal.KernelRun

open Cert.KernelIdeal Cert.KernelIdeal.Gen Cert.KernelIdeal.BlockRows Cert.BlockSum
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The features on device c. -/
abbrev feats (c : Dev nD) : Cert.Spec.SX.Idx → EReal := m ((c : Thread nD τ).loc main_arg0)
/-- The labels on device c. -/
abbrev labels (c : Dev nD) : Cert.Spec.SL.Idx → BitVec 32 := m ((c : Thread nD τ).loc main_arg1)
/-- The centers on device c. -/
abbrev centers (c : Dev nD) : Cert.Spec.SC.Idx → EReal := m ((c : Thread nD τ).loc main_arg2)

/-- The three totals after every point, with the input blocks read as rows of the arguments. -/
theorem totals (c : Dev nD) (n : ℕ) (hn : n < cfg0.N) :
    (outsAt0 m c n hn).1 (ix2 0 0) = upTo (ownTerm (feats m c) (labels m c) (centers m c)) n
    ∧ (∀ (j : Fin 10) (k : Fin 256), (outsAt0 m c n hn).2.1 (ix2 j k) = upTo (sumTerm (feats m c) (labels m c) j k) n)
    ∧ (∀ j : Fin 10, (outsAt0 m c n hn).2.2 (ix2 0 j) = upTo (cntTerm (labels m c) j) n) :=
  Cert.KernelIdeal.Invariant.totals m c (feats m c) (labels m c) (centers m c)
    (fun t r k => Cert.InputBlocks.feat_apply (F := Ideal) m c t r k)
    (fun t r => Cert.InputBlocks.label_apply (F := Ideal) m c t r)
    (fun t j k => congrFun (Cert.InputBlocks.centers_eq (F := Ideal) m c t) (ix2 j k)) n hn

/-- After the last point the running sum is the specification's sum over the batch. -/
theorem last_intra (c : Dev nD) :
    (outsAt0 m c 31 Cert.FinalArrays.h31).1 (ix2 0 0) = Cert.Spec.intraSum (feats m c) (labels m c) (centers m c) := by
  rw [(totals m c 31 Cert.FinalArrays.h31).1, upTo_last]
  rfl

/-- After the last point the class sums are the specification's. -/
theorem last_sums (c : Dev nD) (j : Fin 10) (k : Fin 256) :
    (outsAt0 m c 31 Cert.FinalArrays.h31).2.1 (ix2 j k) = Cert.Spec.segSum (feats m c) (labels m c) j k := by
  rw [(totals m c 31 Cert.FinalArrays.h31).2.1 j k, upTo_last]
  rfl

/-- After the last point the class counts are the specification's. -/
theorem last_counts (c : Dev nD) (j : Fin 10) :
    (outsAt0 m c 31 Cert.FinalArrays.h31).2.2 (ix2 0 j) = Cert.Spec.cnt (labels m c) j := by
  rw [(totals m c 31 Cert.FinalArrays.h31).2.2 j, upTo_last]
  rfl

/-- The run: the two results at the two losses, the arguments unchanged. -/
theorem run : θ_run defs (onTc (τ := τ) (main (F := Ideal))) ⟨m, fun _ => 0, ρ⟩ (fun r => ∀ c : Dev nD,
      r.2.mem ((c.tc : Thread nD τ).loc main_v3) = (fun _ => Cert.Spec.intra (feats m c) (labels m c) (centers m c))
      ∧ r.2.mem ((c.tc : Thread nD τ).loc main_v23) = (fun _ => Cert.Spec.inter (feats m c) (labels m c) (centers m c))
      ∧ r.2.mem ((c.tc : Thread nD τ).loc main_arg2) = m ((c.tc : Thread nD τ).loc main_arg2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun _ h c => ?_) (run_main m ρ)
  -- the three output arrays after the region, and the host operations after it read off them
  obtain ⟨t3, t23⟩ := Cert.HostTail.tail_results m c _ _ _
    (Cert.FinalArrays.final_intra (F := Ideal) m c) (Cert.FinalArrays.final_sums (F := Ideal) m c)
    (Cert.FinalArrays.final_counts (F := Ideal) m c)
  have harg0 : _ = m ((c : Thread nD τ).loc main_arg0) :=
    ((h c).1 0).trans (((dats m 0 c).arrAt_in 0 rfl _).trans ((A_eq m c 0).trans (V_main_arg0 m c)))
  have harg1 : _ = m ((c : Thread nD τ).loc main_arg1) :=
    ((h c).2 main_arg1 (Pipeline.mem_restRefs_of main_arg1 (by decide) (by decide))).trans (W_main_arg1 m (dats m) c)
  have harg2 : _ = m ((c : Thread nD τ).loc main_arg2) :=
    ((h c).1 2).trans (((dats m 0 c).arrAt_in 2 rfl _).trans ((A_eq m c 2).trans (V_main_arg2 m c)))
  refine ⟨?_, ?_, harg2, harg0, harg1, harg2⟩
  · -- the intra loss: the running sum after the last point, over the batch size
    refine ((h c).2 main_v3 (Pipeline.mem_restRefs_of main_v3 (by decide) (by decide))).trans (t3.trans ?_)
    funext _
    rw [last_intra]
    rfl
  · -- the inter loss: from the class sums and counts after the last point
    refine ((h c).2 main_v23 (Pipeline.mem_restRefs_of main_v23 (by decide) (by decide))).trans (t23.trans ?_)
    funext _
    unfold Cert.Spec.inter
    refine congrArg₂ (Cert.Spec.interOf (centers m c)) ?_ ?_
    · funext j k; exact last_sums m c j k
    · funext j; exact last_counts m c j

end Cert.KernelIdeal.KernelRun

end
-- ==== Proof.LibRowScatter.lean ====
/-
  StableHLO's gather and scatter read at an index, for the three index patterns that a row lookup `table[rows]`, a
  segment sum and a histogram lower to: rows of a rank-2 operand selected by one column of start indices.
-/
import Idealize.ShloMosaic.PureOps.ShapeOps
import Idealize.ShloMosaic.Lib.ValueIdx
import Mathlib.Data.Fintype.Card
import Mathlib.Data.List.Count

namespace Cert.LibRowScatter

open Idealize.ShloMosaic Idealize.ShloMosaic.ValueIdx

/-! ## Row gather -/

/-- The dimension numbers of a row lookup: operand `[R, C]`, start indices `[N, 1]`, result `[N, C]`; the result's
    axis 1 is the offset axis, the operand's axis 0 is collapsed and is the one the start index names, slices are
    `[1, C]`. -/
abbrev rowGatherDims (R C N : Nat)
    (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ :=
  { offsetDims := [1], collapsedSliceDims := [0], operandBatchingDims := [], startIndicesBatchingDims := [],
    startIndexMap := [0], indexVectorDim := 1, sliceSizes := ![1, C], wf := wf }

/-- The row gather read at `(n, k)`: when the start index `idx[n, 0]`, read signed, is the row `r` of the operand, the
    result element is the operand's element `(r, k)`. -/
theorem rowGather_apply {R C N w : Nat}
    (wf : GatherDims.WF ⟨2, ![R, C]⟩ ⟨2, ![N, 1]⟩ ⟨2, ![N, C]⟩ [1] [0] [] [0] [] 1 ![1, C]) {α : Type}
    (x : (⟨2, ![R, C]⟩ : Shape).Idx → α) (idx : IVec ⟨2, ![N, 1]⟩ w) (n : Fin N) (k : Fin C) (r : Fin R)
    (hr : (idx (ix2 n 0)).toInt = (r.val : Int)) :
    Host.gather (rowGatherDims R C N wf) x idx (ix2 n k) = x (ix2 r k) := by
  unfold Host.gather
  congr 1
  -- the collapsed axis: the start index, inside the operand so not moved by the clamp, and no offset
  have h0 : (rowGatherDims R C N wf).start (ix2 n k) idx (0 : Fin 2) + (rowGatherDims R C N wf).batchCoord (ix2 n k) (0 : Fin 2)
      + (rowGatherDims R C N wf).offCoord (ix2 n k) (0 : Fin 2) = r.val := by
    rw [GatherDims.batchCoord_eq_zero _ _ _ List.not_mem_nil, Nat.add_zero, GatherDims.offCoord_eq_zero _ _ _
      (fun h => ((GatherDims.mem_sKept _ _).mp h).1 (List.mem_singleton.mpr rfl)), Nat.add_zero]
    unfold GatherDims.start
    rw [dif_pos (show (0 : Fin 2) ∈ (rowGatherDims R C N wf).startIndexMap from List.mem_singleton.mpr rfl)]
    have hsi : (rowGatherDims R C N wf).siIdx (ix2 n k) ⟨List.idxOf (0 : Fin 2) (rowGatherDims R C N wf).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi, hr]
    show min (r.val : Int).toNat (R - 1) = r.val
    have := r.isLt
    rw [Int.toNat_natCast]; omega
  -- the offset axis: start 0, the offset is the result's column
  have h1 : (rowGatherDims R C N wf).start (ix2 n k) idx (1 : Fin 2) + (rowGatherDims R C N wf).batchCoord (ix2 n k) (1 : Fin 2)
      + (rowGatherDims R C N wf).offCoord (ix2 n k) (1 : Fin 2) = k.val := by
    rw [GatherDims.batchCoord_eq_zero _ _ _ List.not_mem_nil, Nat.add_zero]
    unfold GatherDims.start
    rw [dif_neg (show ¬ (1 : Fin 2) ∈ ([0] : List (Fin 2)) by decide), Nat.zero_add]
    unfold GatherDims.offCoord
    rw [dif_pos ((GatherDims.mem_sKept _ _).mpr
      ⟨(show (1 : Fin 2) ∉ ([0] : List (Fin 2)) by decide), List.not_mem_nil⟩)]
    rfl
  funext a
  refine Fin.ext ?_
  match a with
  | ⟨0, _⟩ => exact h0
  | ⟨1, _⟩ => exact h1

/-! ## Where an update lands, in general -/

/-- An update index lands at `i` exactly when, on every axis of the operand, the start read off the scatter indices
    plus the window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split_ifs with h
  · constructor
    · intro e a
      have e' := congrFun (Option.some.inj e) a
      have e'' := congrArg Fin.val e'
      simp only at e''
      have := h a
      omega
    · intro e
      congr 1
      funext a
      refine Fin.ext ?_
      have := e a
      show (d.start j idx a + (d.window j a : Int)).toNat = (i a).val
      omega
  · constructor
    · intro e; cases e
    · intro e
      refine absurd (fun a => ?_) h
      have := e a
      have := (i a).isLt
      constructor <;> omega

/-! ## Row scatter -/

/-- The dimension numbers of a segment sum of rows: operand `[R, C]`, scatter indices `[N, 1]`, updates `[N, C]`; the
    updates' axis 1 is the window axis, the operand's axis 0 is inserted and is the one the scatter index names. -/
abbrev rowScatterDims (R C N : Nat)
    (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ :=
  { updateWindowDims := [1], insertedWindowDims := [0], scatterDimsToOperandDims := [0], indexVectorDim := 1, wf := wf }

/-- Where update `(n, k)` of a row scatter lands: at `(r, k')` exactly when the scatter index `idx[n, 0]`, read signed,
    is the row `r` and the column is kept. -/
theorem rowScatter_resultIdx {R C N w : Nat}
    (wf : ScatterDims.WF ⟨2, ![R, C]⟩ ⟨2, ![N, 1]⟩ ⟨2, ![N, C]⟩ [1] [0] [0] 1)
    (idx : IVec ⟨2, ![N, 1]⟩ w) (n : Fin N) (k : Fin C) (r : Fin R) (k' : Fin C) :
    (rowScatterDims R C N wf).resultIdx? (ix2 n k) idx = some (ix2 r k')
      ↔ ((idx (ix2 n 0)).toInt = (r.val : Int) ∧ k = k') := by
  rw [resultIdx?_eq_some_iff]
  -- on the inserted axis the start is the scatter index and there is no window coordinate
  have hs0 : (rowScatterDims R C N wf).start (ix2 n k) idx (0 : Fin 2) = (idx (ix2 n 0)).toInt := by
    unfold ScatterDims.start
    rw [dif_pos (show (0 : Fin 2) ∈ (rowScatterDims R C N wf).scatterDimsToOperandDims from List.mem_singleton.mpr rfl)]
    have hsi : (rowScatterDims R C N wf).siIdx (ix2 n k)
        ⟨List.idxOf (0 : Fin 2) (rowScatterDims R C N wf).scatterDimsToOperandDims,
          List.idxOf_lt_length_iff.2 (List.mem_singleton.mpr rfl)⟩ = ix2 n 0 := by
      funext b; refine Fin.ext ?_
      match b with
      | ⟨0, _⟩ => rfl
      | ⟨1, _⟩ => rfl
    rw [hsi]
  have hk0 : (0 : Fin 2) ∉ (rowScatterDims R C N wf).sKept := by simp [ScatterDims.sKept, Shape.kept]
  have hw0 : (rowScatterDims R C N wf).window (ix2 n k) (0 : Fin 2) = 0 := by
    unfold ScatterDims.window
    rw [dif_neg hk0]
  -- on the window axis the start is 0 and the window coordinate is the update's column
  have hs1 : (rowScatterDims R C N wf).start (ix2 n k) idx (1 : Fin 2) = 0 := by
    unfold ScatterDims.start
    rw [dif_neg (show ¬ (1 : Fin 2) ∈ ([0] : List (Fin 2)) by decide)]
  have hk1 : (1 : Fin 2) ∈ (rowScatterDims R C N wf).sKept := by simp [ScatterDims.sKept, Shape.kept]
  have hw1 : (rowScatterDims R C N wf).window (ix2 n k) (1 : Fin 2) = k.val := by
    unfold ScatterDims.window
    rw [dif_pos hk1]
    rfl
  constructor
  · intro h
    have e0 := h (0 : Fin 2)
    have e1 := h (1 : Fin 2)
    rw [hs0, hw0] at e0
    rw [hs1, hw1] at e1
    change _ + ((0 : Nat) : Int) = (r.val : Int) at e0
    change (0 : Int) + (k.val : Int) = (k'.val : Int) at e1
    exact ⟨by omega, Fin.ext (by omega)⟩
  · rintro ⟨h1, rfl⟩
    have e0 : (rowScatterDims R C N wf).start (ix2 n k) idx (0 : Fin 2)
        + ((rowScatterDims R C N wf).window (ix2 n k) (0 : Fin 2) : Int) = (r.val : Int) := by
      rw [hs0, hw0, h1]; simp
    have e1 : (rowScatterDims R C N wf).start (ix2 n k) idx (1 : Fin 2)
        + ((rowScatterDims R C N wf).window (ix2 n k) (1 : Fin 2) : Int) = (k.val : Int) := by
      rw [hs1, hw1]; simp
    intro a
    match a with
    | ⟨0, _⟩ => exact e0
    | ⟨1, _⟩ => exact e1

/-! ## Cell scatter -/

/-- The dimension numbers of a histogram: operand `[R]`, scatter indices `[N, 1]`, updates `[N]`; no window axis, the
    operand's only axis is inserted and is the one the scatter index names. -/
abbrev cellScatterDims (R N : Nat)
    (wf : ScatterDims.WF ⟨1, ![R]⟩ ⟨2, ![N, 1]⟩ ⟨1, ![N]⟩ [] [0] [0] 1) :
    ScatterDims ⟨1, ![R]⟩ ⟨2, ![N, 1]⟩ ⟨1, ![N]⟩ :=
  { updateWindowDims := [], insertedWindowDims := [0], scatterDimsToOperandDims := [0], indexVectorDim := 1, wf := wf }

/-- Where update `n` of a cell scatter lands: at the cell `r` exactly when the scatter index `idx[n, 0]`, read signed,
    is `r`. -/
theorem cellScatter_resultIdx {R N w : Nat}
    (wf : ScatterDims.WF ⟨1, ![R]⟩ ⟨2, ![N, 1]⟩ ⟨1, ![N]⟩ [] [0] [0] 1)
    (idx : IVec ⟨2, ![N, 1]⟩ w) (n : Fin N) (r : Fin R) :
    (cellScatterDims R N wf).resultIdx? (ix1 n) idx = some (ix1 r) ↔ (idx (ix2 n 0)).toInt = (r.val : Int) := by
  rw [resultIdx?_eq_some_iff]
  -- the only axis is inserted: the start is the scatter index and there is no window coordinate
  have hs0 : (cellScatterDims R N wf).start (ix1 n) idx (0 : Fin 1) = (idx (ix2 n 0)).toInt := by
    unfold ScatterDims.start
    rw [dif_pos (show (0 : Fin 1) ∈ (cellScatterDims R N wf).scatterDimsToOperandDims from List.mem_singleton.mpr rfl)]
    have hsi : (cellScatterDims R N wf).siIdx (ix1 n)
        ⟨List.idxOf (0 : Fin 1) (cellScatterDims R N wf).scatterDimsToOperandDims,
          List.idxOf_lt_length_iff.2 (List.mem_singleton.mpr rfl)⟩ = ix2 n 0 := by
      funext b; refine Fin.ext ?_
      match b with
      | ⟨0, _⟩ => rfl
      | ⟨1, _⟩ => rfl
    rw [hsi]
  have hk0 : (0 : Fin 1) ∉ (cellScatterDims R N wf).sKept := by simp [ScatterDims.sKept, Shape.kept]
  have hw0 : (cellScatterDims R N wf).window (ix1 n) (0 : Fin 1) = 0 := by
    unfold ScatterDims.window
    rw [dif_neg hk0]
  constructor
  · intro h
    have e0 := h (0 : Fin 1)
    rw [hs0, hw0] at e0
    change _ + ((0 : Nat) : Int) = (r.val : Int) at e0
    omega
  · intro h1
    have e0 : (cellScatterDims R N wf).start (ix1 n) idx (0 : Fin 1)
        + ((cellScatterDims R N wf).window (ix1 n) (0 : Fin 1) : Int) = (r.val : Int) := by
      rw [hs0, hw0, h1]; simp
    intro a
    match a with
    | ⟨0, _⟩ => exact e0

/-! ## A scatter-add of ones counts -/

/-- A left fold whose every step adds, at the element `i`, one when the step's item satisfies `p` and nothing
    otherwise, adds at `i` the number of items of the list that satisfy `p`. -/
theorem foldl_count {β ι : Type} (i : β) (G : (β → BitVec 32) → ι → (β → BitVec 32)) (p : ι → Prop)
    [DecidablePred p] (hG : ∀ r n, G r n i = r i + BitVec.ofNat 32 (if p n then 1 else 0)) :
    ∀ (L : List ι) (r : β → BitVec 32),
      (L.foldl G r) i = r i + BitVec.ofNat 32 (L.countP (fun n => decide (p n))) := by
  intro L
  induction L with
  | nil => intro r; simp
  | cons a L ih =>
    intro r
    rw [List.foldl_cons, ih, hG, List.countP_cons]
    by_cases h : p a
    · simp only [h, if_true, decide_true, BitVec.ofNat_add]
      ac_rfl
    · simp [h]

/-- Counting the positions of the row-major enumeration whose index satisfies a property counts the indices that
    satisfy it. -/
theorem countP_finRange_rowMajor (u : Shape) (p : u.Idx → Prop) [DecidablePred p] :
    (List.finRange u.numel).countP (fun n => decide (p (u.rowMajor.symm n)))
      = (Finset.univ.filter fun j : u.Idx => p j).card := by
  have h1 : (List.finRange u.numel).countP (fun n => decide (p (u.rowMajor.symm n)))
      = (Finset.univ.filter fun n : Fin u.numel => p (u.rowMajor.symm n)).card := by
    rw [List.countP_eq_length_filter]
    rfl
  rw [h1]
  exact Finset.card_equiv u.rowMajor.symm (by simp)

/-- An integer scatter-add of ones into zeros, with any dimension numbers, holds at each element the number of update
    indices that land there (as a 32-bit word). -/
theorem scatter_addi_ones {s si u : Shape} (d : ScatterDims s si u) {w : Nat} (idx : IVec si w) (i : s.Idx) :
    Host.scatter d IntOp.addi (fun _ => (0#32 : BitVec 32)) idx (fun _ => (1#32 : BitVec 32)) i
      = BitVec.ofNat 32 ((Finset.univ.filter fun j : u.Idx => d.resultIdx? j idx = some i).card) := by
  unfold Host.scatter
  rw [foldl_count i _ (fun n => d.resultIdx? (u.rowMajor.symm n) idx = some i) ?_ (List.finRange u.numel)
    (fun _ => (0#32 : BitVec 32))]
  · rw [countP_finRange_rowMajor u (fun j => d.resultIdx? j idx = some i)]
    simp
  · intro r n
    cases hres : d.resultIdx? (u.rowMajor.symm n) idx with
    | none => simp
    | some i0 =>
      by_cases hi : i = i0
      · subst hi
        simp [IntOp.addi]
      · have : ¬ i0 = i := fun e => hi e.symm
        simp [hi, this]

end Cert.LibRowScatter
-- ==== Proof.LibCellGather.lean ====
/-
  StableHLO's gather read at an index, for the index pattern that a cell lookup `table[rows, cols]` lowers to: one
  element of a rank-2 operand per row of the start indices, both of its coordinates named by that row.
-/
import Idealize.ShloMosaic.PureOps.ShapeOps
import Idealize.ShloMosaic.Lib.ValueIdx

namespace Cert.LibCellGather

open Idealize.ShloMosaic Idealize.ShloMosaic.ValueIdx

/-- The dimension numbers of a cell lookup: operand `[R, C]`, start indices `[N, 2]`, result `[N]`; both axes of the
    operand are collapsed and both are named by the start index, whose two components lie along axis 1 of the start
    indices; slices are `[1, 1]` and the result has no offset axis. -/
abbrev cellGatherDims (R C N : Nat)
    (wf : GatherDims.WF ⟨2, ![R, C]⟩ ⟨2, ![N, 2]⟩ ⟨1, ![N]⟩ [] [0, 1] [] [0, 1] [] 1 ![1, 1]) :
    GatherDims ⟨2, ![R, C]⟩ ⟨2, ![N, 2]⟩ ⟨1, ![N]⟩ :=
  { offsetDims := [], collapsedSliceDims := [0, 1], operandBatchingDims := [], startIndicesBatchingDims := [],
    startIndexMap := [0, 1], indexVectorDim := 1, sliceSizes := ![1, 1], wf := wf }

/-- The cell gather read at `n`: when the two start indices `idx[n, 0]` and `idx[n, 1]`, read signed, are a row `r` and
    a column `c` of the operand, the result element is the operand's element `(r, c)`. Inside the operand the clamp of a
    start index moves nothing. -/
theorem cellGather_apply {R C N w : Nat}
    (wf : GatherDims.WF ⟨2, ![R, C]⟩ ⟨2, ![N, 2]⟩ ⟨1, ![N]⟩ [] [0, 1] [] [0, 1] [] 1 ![1, 1]) {α : Type}
    (x : (⟨2, ![R, C]⟩ : Shape).Idx → α) (idx : IVec ⟨2, ![N, 2]⟩ w) (n : Fin N) (r : Fin R) (c : Fin C)
    (hr : (idx (ix2 n 0)).toInt = (r.val : Int)) (hc : (idx (ix2 n 1)).toInt = (c.val : Int)) :
    Host.gather (cellGatherDims R C N wf) x idx (ix1 n) = x (ix2 r c) := by
  unfold Host.gather
  congr 1
  have m0 : (0 : Fin 2) ∈ ([0, 1] : List (Fin 2)) := by decide
  have m1 : (1 : Fin 2) ∈ ([0, 1] : List (Fin 2)) := by decide
  -- the row axis: collapsed, so no offset; its start is the first component of the start index
  have h0 : (cellGatherDims R C N wf).start (ix1 n) idx (0 : Fin 2) + (cellGatherDims R C N wf).batchCoord (ix1 n) (0 : Fin 2)
      + (cellGatherDims R C N wf).offCoord (ix1 n) (0 : Fin 2) = r.val := by
    rw [GatherDims.batchCoord_eq_zero _ _ _ List.not_mem_nil, Nat.add_zero, GatherDims.offCoord_eq_zero _ _ _
      (fun h => ((GatherDims.mem_sKept _ _).mp h).1 m0), Nat.add_zero]
    unfold GatherDims.start
    rw [dif_pos (show (0 : Fin 2) ∈ (cellGatherDims R C N wf).startIndexMap from m0)]
    have hsi : (cellGatherDims R C N wf).siIdx (ix1 n) ⟨List.idxOf (0 : Fin 2) (cellGatherDims R C N wf).startIndexMap,
        List.idxOf_lt_length_iff.2 m0⟩ = ix2 n 0 := by
      funext b; refine Fin.ext ?_
      match b with
      | ⟨0, _⟩ => rfl
      | ⟨1, _⟩ => rfl
    rw [hsi, hr]
    show min (r.val : Int).toNat (R - 1) = r.val
    have := r.isLt
    rw [Int.toNat_natCast]; omega
  -- the column axis: collapsed too; its start is the second component of the start index
  have h1 : (cellGatherDims R C N wf).start (ix1 n) idx (1 : Fin 2) + (cellGatherDims R C N wf).batchCoord (ix1 n) (1 : Fin 2)
      + (cellGatherDims R C N wf).offCoord (ix1 n) (1 : Fin 2) = c.val := by
    rw [GatherDims.batchCoord_eq_zero _ _ _ List.not_mem_nil, Nat.add_zero, GatherDims.offCoord_eq_zero _ _ _
      (fun h => ((GatherDims.mem_sKept _ _).mp h).1 m1), Nat.add_zero]
    unfold GatherDims.start
    rw [dif_pos (show (1 : Fin 2) ∈ (cellGatherDims R C N wf).startIndexMap from m1)]
    have hsi : (cellGatherDims R C N wf).siIdx (ix1 n) ⟨List.idxOf (1 : Fin 2) (cellGatherDims R C N wf).startIndexMap,
        List.idxOf_lt_length_iff.2 m1⟩ = ix2 n 1 := by
      funext b; refine Fin.ext ?_
      match b with
      | ⟨0, _⟩ => rfl
      | ⟨1, _⟩ => rfl
    rw [hsi, hc]
    show min (c.val : Int).toNat (C - 1) = c.val
    have := c.isLt
    rw [Int.toNat_natCast]; omega
  funext a
  refine Fin.ext ?_
  match a with
  | ⟨0, _⟩ => exact h0
  | ⟨1, _⟩ => exact h1

end Cert.LibCellGather
-- ==== Proof.RefValue.lean ====
/-
  The reference's two results are the specification's two losses.

  The intra loss: the reference gathers, for each row n, the entry of the row of clamped squared distances at the
  column its label names, takes the root, clips and averages. With the label in 0..9 neither start index of the
  gather is moved by the wrap of negative indices or by the clamp, so the gathered entry is the distance to the
  row's own center; summing the row of distances against the indicator row of the label picks the same entry.

  The inter loss: a scatter-add of the feature rows into a zero table adds, at class r, the rows whose label is r,
  and a scatter-add of ones counts them; a row whose label names no class lands outside the table and adds
  nothing, as its indicator row is zero. So the two tables are the indicator-weighted sums, with no condition on
  the labels.

  A host sum starts from its initial value, the zero word, which is the real zero: it is dropped here.
-/
import proofs.«430536_j62929860821403_3_alg».proof.Proof.Gen.ReferenceIdeal.Read
import proofs.«430536_j62929860821403_3_alg».proof.Proof.Spec
import proofs.«430536_j62929860821403_3_alg».proof.Proof.OneHot
import proofs.«430536_j62929860821403_3_alg».proof.Proof.LibRowScatter
import proofs.«430536_j62929860821403_3_alg».proof.Proof.LibCellGather
import Idealize.ShloMosaic.Lib.IdealHost
import Idealize.ShloMosaic.Lib.ValueIdxRank1

noncomputable section

namespace Cert.RefValue

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo
open Cert.Spec

/-- The features, the labels and the centers, as the reference's argument buffers hold them. -/
abbrev XT : Type := (⟨S262144x256, .f32⟩ : BufTy).Contents (Elt Ideal)
abbrev LT : Type := (⟨S262144, .i32⟩ : BufTy).Contents (Elt Ideal)
abbrev CT : Type := (⟨S10x256, .f32⟩ : BufTy).Contents (Elt Ideal)

/-! ## The two scatter-adds -/

/-- The scatter indices of both scatters are the labels as a column: entry (n, 0) is the label of row n. -/
theorem labelCol_apply (L : LT) (n : Fin 262144) : val_main_v36 (F := Ideal) L (ix2 n 0) = L (ix1 n) := by
  rw [val_main_v36_apply]
  exact congrArg L (funext fun a => Fin.ext (by match a with | ⟨0, _⟩ => rfl))

theorem labelCol'_apply (L : LT) (n : Fin 262144) : val_main_v40 (F := Ideal) L (ix2 n 0) = L (ix1 n) := by
  rw [val_main_v40_apply]
  exact congrArg L (funext fun a => Fin.ext (by match a with | ⟨0, _⟩ => rfl))

/-- The scatter-add of the feature rows into zeros, read at (r, k): the sum over the rows of the indicator of
    "row n has label r" times the row's entry k. An update (n, k') lands at (r, k) exactly when the label of row n is
    r and k' = k. -/
theorem segSum_apply (X : XT) (L : LT) (r : Fin 10) (k : Fin 256) :
    val_main_v37 (F := Ideal) X L (ix2 r k) = Spec.segSum X L r k := by
  unfold val_main_v37
  simp only [Host.scatterAdd, Ideal.hostScatterAdd_def]
  unfold Ideal.hostScatterAdd
  rw [val_main_v35_apply, val_main_cst_10_apply, Ideal.ofBits_def, Ideal.ofBits_zero_f32, zero_add,
    Finset.sum_filter, sum_idx2]
  unfold Spec.segSum
  refine Finset.sum_congr rfl fun n _ => ?_
  have hd : ∀ k' : Fin 256, scatter_S10x256_S262144x1_S262144x256_1_0_0_1.resultIdx? (ix2 n k') (val_main_v36 (F := Ideal) L)
      = some (ix2 r k) ↔ (Spec.labelIs L n r ∧ k' = k) := by
    intro k'
    have h := Cert.LibRowScatter.rowScatter_resultIdx scatter_S10x256_S262144x1_S262144x256_1_0_0_1_wf
      (val_main_v36 (F := Ideal) L) n k' r k
    rw [labelCol_apply] at h
    exact h
  simp only [hd]
  by_cases h : Spec.labelIs L n r
  · simp only [h, true_and, Finset.sum_ite_eq', Finset.mem_univ, if_true]
    unfold Spec.ind
    rw [if_pos h, one_mul]
  · simp only [h, false_and, if_false, Finset.sum_const_zero]
    unfold Spec.ind
    rw [if_neg h, zero_mul]

/-- The scatter-add of ones into zeros, read at r: the number of rows whose label is r, as the sum of the
    indicators. Update n lands at r exactly when the label of row n is r; the word 1.0 is the real one. -/
theorem cnt_apply (L : LT) (r : Fin 10) : val_main_v41 (F := Ideal) L (ix1 r) = Spec.cnt L r := by
  unfold val_main_v41
  simp only [Host.scatterAdd, Ideal.hostScatterAdd_def]
  unfold Ideal.hostScatterAdd
  rw [val_main_v39_apply, val_main_cst_12_apply, Ideal.ofBits_def, Ideal.ofBits_zero_f32, zero_add,
    Finset.sum_filter, ← Equiv.sum_comp (idxEquiv1 (n := 262144)).symm]
  unfold Spec.cnt
  refine Finset.sum_congr rfl fun n _ => ?_
  show (if scatter_S10_S262144x1_S262144_n_0_0_1.resultIdx? (ix1 n) (val_main_v40 (F := Ideal) L) = some (ix1 r)
    then val_main_v38 (F := Ideal) (ix1 n) else 0) = Spec.ind L n r
  have hd : scatter_S10_S262144x1_S262144_n_0_0_1.resultIdx? (ix1 n) (val_main_v40 (F := Ideal) L) = some (ix1 r)
      ↔ Spec.labelIs L n r := by
    have h := Cert.LibRowScatter.cellScatter_resultIdx scatter_S10_S262144x1_S262144_n_0_0_1_wf
      (val_main_v40 (F := Ideal) L) n r
    rw [labelCol'_apply] at h
    exact h
  rw [val_main_v38_apply, val_main_cst_11_apply, Ideal.ofBits_def, Ideal.ofBits_one_f32]
  simp only [hd]
  rfl

/-! ## The inter loss -/

/-- The updated centers, read at (r, k): (center + class sum) / max (count, 1). -/
theorem c2_apply (X : XT) (L : LT) (Cn : CT) (r : Fin 10) (k : Fin 256) :
    val_main_v47 (F := Ideal) X L Cn (ix2 r k) = Spec.c2 Cn (Spec.segSum X L) (Spec.cnt L) r k := by
  rw [val_main_v47_apply, val_main_v42_apply, segSum_apply, val_main_v46_apply, val_main_v45_apply, val_main_v44_apply,
    val_main_v43_apply, val_main_cst_13_apply]
  have e : idx_main_v45 (idx_main_v46 (ix2 r k)) = ix1 r :=
    funext fun a => Fin.ext (by match a with | ⟨0, _⟩ => rfl)
  rw [e, cnt_apply]
  rfl

/-- Row 8 of the updated centers, as the reference slices and reshapes it. -/
theorem c2_row8 (X : XT) (L : LT) (Cn : CT) (k : Fin 256) :
    val_main_v49 (F := Ideal) X L Cn (ix1 k) = Spec.c2 Cn (Spec.segSum X L) (Spec.cnt L) 8 k := by
  rw [val_main_v49_apply, val_main_v48_apply]
  have e : idx_main_v48 (idx_main_v49 (ix1 k)) = ix2 (8 : Fin 10) k :=
    funext fun a => Fin.ext (by
      match a with
      | ⟨0, _⟩ => rfl
      | ⟨1, _⟩ => show k.val % 256 = k.val; omega)
  rw [e, c2_apply]

/-- Row 9 of the updated centers. -/
theorem c2_row9 (X : XT) (L : LT) (Cn : CT) (k : Fin 256) :
    val_main_v51 (F := Ideal) X L Cn (ix1 k) = Spec.c2 Cn (Spec.segSum X L) (Spec.cnt L) 9 k := by
  rw [val_main_v51_apply, val_main_v50_apply]
  have e : idx_main_v50 (idx_main_v51 (ix1 k)) = ix2 (9 : Fin 10) k :=
    funext fun a => Fin.ext (by
      match a with
      | ⟨0, _⟩ => rfl
      | ⟨1, _⟩ => show k.val % 256 = k.val; omega)
  rw [e, c2_apply]

/-- (R2) The reference's second result is the inter loss of the specification, whatever the labels. -/
theorem inter_eq (X : XT) (L : LT) (Cn : CT) :
    val_main_v60 (F := Ideal) X L Cn = fun _ => Spec.inter X L Cn := by
  funext i
  have hs : ∀ i' : S_.Idx, val_main_v54 (F := Ideal) X L Cn i'
      = ∑ k : Fin 256, (Spec.c2 Cn (Spec.segSum X L) (Spec.cnt L) 8 k - Spec.c2 Cn (Spec.segSum X L) (Spec.cnt L) 9 k)
        * (Spec.c2 Cn (Spec.segSum X L) (Spec.cnt L) 8 k - Spec.c2 Cn (Spec.segSum X L) (Spec.cnt L) 9 k) := by
    intro i'
    rw [val_main_v54_apply, val_main_cst_14_apply, Ideal.ofBits_def, Ideal.ofBits_zero_f32, zero_add,
      ← Equiv.sum_comp (idxEquiv1 (n := 256)).symm]
    refine Finset.sum_congr rfl fun k _ => ?_
    show val_main_v53 (F := Ideal) X L Cn (ix1 k) = _
    rw [val_main_v53_apply, val_main_v52_apply, c2_row8, c2_row9]
    rfl
  rw [val_main_v60_apply, val_main_v59_apply, val_main_cst_19_apply, val_main_v58_apply, val_main_call1_v2_apply,
    val_main_cst_18_apply, val_main_call1_v1_apply, val_main_call1_v0_apply, val_main_cst_17_apply, val_main_v57_apply,
    val_main_cst_16_apply, val_main_v56_apply, val_main_v55_apply, val_main_cst_15_apply, hs]
  simp only [Ideal.ofBits_def, Ideal.hostDivf_def, Ideal.minimumf_def, Ideal.maximumf_def, Ideal.mulf_def,
    Ideal.hostUnary_sqrt_def]
  unfold Spec.inter Spec.interOf Spec.clip
  rfl

/-! ## The intra loss -/

/-- The clamped squared distances, read at (n, j): the three row sums the reference computes, each started from the
    zero word. -/
theorem d2_apply (X : XT) (Cn : CT) (n : Fin 262144) (j : Fin 10) :
    val_main_v15 (F := Ideal) X Cn (ix2 n j) = Spec.d2 X Cn n j := by
  have s1 : val_main_v1 (F := Ideal) X (idx_main_v2 (idx_main_v6 (ix2 n j)))
      = ∑ k : Fin 256, X (ix2 n k) * X (ix2 n k) := by
    rw [val_main_v1_apply, val_main_cst_apply, Ideal.ofBits_def, Ideal.ofBits_zero_f32, zero_add]
    refine Finset.sum_congr rfl fun k _ => ?_
    have e : idx_main_v1 (idx_main_v2 (idx_main_v6 (ix2 n j))) k = ix2 n k :=
      funext fun a => Fin.ext (by match a with | ⟨0, _⟩ => rfl | ⟨1, _⟩ => rfl)
    rw [val_main_v0_apply, e]
    rfl
  have s4 : val_main_v4 (F := Ideal) Cn (idx_main_v5 (idx_main_v7 (ix2 n j)))
      = ∑ k : Fin 256, Cn (ix2 j k) * Cn (ix2 j k) := by
    rw [val_main_v4_apply, val_main_cst_0_apply, Ideal.ofBits_def, Ideal.ofBits_zero_f32, zero_add]
    refine Finset.sum_congr rfl fun k _ => ?_
    have e : idx_main_v4 (idx_main_v5 (idx_main_v7 (ix2 n j))) k = ix2 j k :=
      funext fun a => Fin.ext (by match a with | ⟨0, _⟩ => rfl | ⟨1, _⟩ => rfl)
    rw [val_main_v3_apply, e]
    rfl
  have s10 : val_main_v10 (F := Ideal) X Cn (ix2 n j) = ∑ k : Fin 256, X (ix2 n k) * Cn (ix2 j k) := by
    rw [val_main_v10_apply]
    refine Finset.sum_congr rfl fun k _ => ?_
    have el : lidx_main_v10 (ix2 n j) k = ix2 n k :=
      funext fun a => Fin.ext (by match a with | ⟨0, _⟩ => rfl | ⟨1, _⟩ => rfl)
    have er : idx_main_v9 (ridx_main_v10 (ix2 n j) k) = ix2 j k :=
      funext fun a => Fin.ext (by match a with | ⟨0, _⟩ => rfl | ⟨1, _⟩ => rfl)
    rw [val_main_v9_apply, el, er]
  rw [val_main_v15_apply, val_main_v13_apply, val_main_v8_apply, val_main_v6_apply, val_main_v2_apply, s1, val_main_v7_apply,
    val_main_v5_apply, s4, val_main_v12_apply, val_main_v11_apply, val_main_cst_1_apply, s10, val_main_v14_apply,
    val_main_cst_2_apply]
  simp only [Ideal.ofBits_def, Ideal.maximumf_def, Ideal.subf_def, Ideal.addf_def, Ideal.mulf_def]
  unfold Spec.d2
  rfl

/-- The wrap of a negative index (add the extent where the word is negative read signed) leaves a word alone that is
    not negative. -/
theorem wrap_of_nonneg (x y : BitVec 32) (h : 0 ≤ x.toInt) :
    Scalar.select (IntOp.cmpi .slt x 0#32) y x = x := by
  have hc : IntOp.cmpi .slt x 0#32 = 0#1 := by
    show BitVec.ofBool (x.slt 0#32) = 0#1
    rw [BitVec.slt_eq_decide, BitVec.toInt_zero, decide_eq_false (by omega)]
    rfl
  rw [hc]
  exact select_zero _ _

/-- The first column of the start indices is the row number. -/
theorem rowIdx_apply (L : LT) (n : Fin 262144) : (val_main_v29 (F := Ideal) L (ix2 n 0)).toInt = (n.val : Int) := by
  unfold val_main_v29
  rw [concatenate_pair_apply_left (1 : Fin S262144x2.rank) (val_main_v27 (F := Ideal)) (val_main_v28 (F := Ideal) L)
    concatenates_S262144x1_S262144x1_S262144x2_d1 (ix2 n 0) rfl (ix2 n 0)
    (fun b => by match b with | ⟨0, _⟩ => rfl | ⟨1, _⟩ => rfl)]
  rw [val_main_v27_apply, val_main_v21_apply, val_main_v18_apply, val_main_v17_apply, val_main_c_apply, val_main_v16_apply]
  show (Scalar.select (IntOp.cmpi .slt (BitVec.ofNat 32 n.val) 0#32) _ (BitVec.ofNat 32 n.val)).toInt = _
  have hn : (BitVec.ofNat 32 n.val).toInt = (n.val : Int) := by
    have := n.isLt
    rw [BitVec.toInt_eq_toNat_of_lt (by rw [BitVec.toNat_ofNat]; omega), BitVec.toNat_ofNat]
    omega
  rw [wrap_of_nonneg _ _ (by rw [hn]; omega), hn]

/-- The second column of the start indices reads the class j when the label is the class j: a class number is not
    negative, so the wrap of negative labels leaves it alone. -/
theorem colIdx_apply (L : LT) (n : Fin 262144) (j : Fin 10) (h : Spec.labelIs L n j) :
    (val_main_v29 (F := Ideal) L (ix2 n 1)).toInt = (j.val : Int) := by
  unfold val_main_v29
  rw [concatenate_pair_apply_right (1 : Fin S262144x2.rank) (val_main_v27 (F := Ideal)) (val_main_v28 (F := Ideal) L)
    concatenates_S262144x1_S262144x1_S262144x2_d1 (ix2 n 1) rfl rfl (ix2 n 0)
    (fun b hb => by
      match b, hb with
      | ⟨0, _⟩, _ => rfl
      | ⟨1, _⟩, hb => exact absurd rfl hb) rfl]
  have e : idx_main_v28 (ix2 n (0 : Fin 1)) = ix1 n := funext fun a => Fin.ext (by match a with | ⟨0, _⟩ => rfl)
  rw [val_main_v28_apply, val_main_v26_apply, val_main_v23_apply, val_main_v22_apply, val_main_c_4_apply, e]
  unfold Spec.labelIs at h
  rw [wrap_of_nonneg _ _ (by rw [h]; omega), h]

/-- With the label of row n equal to j, the indicator row of the label is the indicator of position j, and the row of
    distances summed against it is the entry at j. -/
theorem ownD2_of_label (X : XT) (L : LT) (Cn : CT) (n : Fin 262144) (j : Fin 10) (h : Spec.labelIs L n j) :
    Spec.ownD2 X L Cn n = Spec.d2 X Cn n j := by
  unfold Spec.ownD2
  have hi : ∀ j' : Fin 10, Spec.ind L n j' = if j' = j then (1 : EReal) else 0 := by
    intro j'
    unfold Spec.ind
    by_cases hj : j' = j
    · subst hj; rw [if_pos h, if_pos rfl]
    · rw [if_neg hj, if_neg (fun h' => hj (Fin.ext (by unfold Spec.labelIs at h h'; omega)))]
  simp only [hi]
  exact Cert.OneHot.sum_mul_indicator_eq (fun j' => Spec.d2 X Cn n j') j

/-- The gathered entry of row n is the squared distance to the row's own center. -/
theorem own_apply (X : XT) (L : LT) (Cn : CT) (n : Fin 262144) (j : Fin 10) (h : Spec.labelIs L n j) :
    val_main_v30 (F := Ideal) X L Cn (ix1 n) = Spec.ownD2 X L Cn n := by
  rw [ownD2_of_label X L Cn n j h, ← d2_apply]
  unfold val_main_v30
  exact Cert.LibCellGather.cellGather_apply gather_S262144x10_S262144x2_S262144_n_01_n_n_01_1_11_wf
    (val_main_v15 (F := Ideal) X Cn) (val_main_v29 (F := Ideal) L) n n j (rowIdx_apply L n) (colIdx_apply L n j h)

/-- (R1) With every label in 0..9, the reference's first result is the intra loss of the specification. -/
theorem intra_eq (X : XT) (L : LT) (Cn : CT) (hL : ∀ n : Fin 262144, ∃ j : Fin 10, Spec.labelIs L n j) :
    val_main_v34 (F := Ideal) X L Cn = fun _ => Spec.intra X L Cn := by
  funext i
  have hs : ∀ i' : S_.Idx, val_main_v33 (F := Ideal) X L Cn i' = Spec.intraSum X L Cn := by
    intro i'
    rw [val_main_v33_apply, val_main_cst_8_apply, Ideal.ofBits_def, Ideal.ofBits_zero_f32, zero_add,
      ← Equiv.sum_comp (idxEquiv1 (n := 262144)).symm]
    unfold Spec.intraSum
    refine Finset.sum_congr rfl fun n _ => ?_
    show val_main_v32 (F := Ideal) X L Cn (ix1 n) = _
    obtain ⟨j, hj⟩ := hL n
    rw [val_main_v32_apply, val_main_call0_v4_apply, val_main_call0_v3_apply, val_main_cst_7_apply, val_main_call0_v2_apply,
      val_main_call0_v1_apply, val_main_call0_v0_apply, val_main_cst_6_apply, val_main_v31_apply, own_apply X L Cn n j hj]
    simp only [Ideal.ofBits_def, Ideal.minimumf_def, Ideal.maximumf_def, Ideal.hostUnary_sqrt_def]
    unfold Spec.clip
    rfl
  rw [val_main_v34_apply, hs, val_main_cst_9_apply]
  simp only [Ideal.ofBits_def, Ideal.hostDivf_def]
  unfold Spec.intra
  rfl

/-! ## The run -/

/-- Every weakly fair execution of the reference terminates with its two scalar results at the two losses of the
    specification and its arguments unchanged, when every label is in 0..9. -/
theorem run (m : (ℓ : Loc nD τ sig) → Buf (Elt Ideal) ℓ) (ρ : Dev nD → PrngReg)
    (hL : ∀ c : Dev nD, ∀ n : Fin 262144, ∃ j : Fin 10,
      Spec.labelIs (m ((c.tc : Thread nD τ).loc main_arg1)) n j) :
    θ_run defs (onTc (τ := τ) (main (F := Ideal))) ⟨m, fun _ => 0, ρ⟩ fun r => ∀ c : Dev nD,
      r.2.mem ((c.tc : Thread nD τ).loc main_v34)
          = (fun _ => Spec.intra (m ((c.tc : Thread nD τ).loc main_arg0)) (m ((c.tc : Thread nD τ).loc main_arg1))
              (m ((c.tc : Thread nD τ).loc main_arg2)))
      ∧ r.2.mem ((c.tc : Thread nD τ).loc main_v60)
          = (fun _ => Spec.inter (m ((c.tc : Thread nD τ).loc main_arg0)) (m ((c.tc : Thread nD τ).loc main_arg1))
              (m ((c.tc : Thread nD τ).loc main_arg2)))
      ∧ r.2.mem ((c.tc : Thread nD τ).loc main_arg2) = m ((c.tc : Thread nD τ).loc main_arg2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c).1.trans ((val_main_v34_eq _ _ _).trans (intra_eq _ _ _ (hL c))),
        (h c).2.1.trans ((val_main_v60_eq m c).trans (inter_eq _ _ _)),
        (h c).2.2⟩)
    (Cert.ReferenceIdeal.Value.run (F := Ideal) m ρ)

end Cert.RefValue

end
-- ==== Proof.LabelRange.lean ====
/-
  The label range, read out of the precondition.

  The precondition's last conjunct is an "all" over the 262144 labels of the bit (0 ≤ label) and (label < 10), both
  comparisons signed, each against a scalar constant broadcast along the one axis. The whole predicate is one bit; when
  it is set, every conjunct is, so the "all" is, so the bit at every row n is, so both comparisons hold of the label
  of row n. A word whose signed value lies in 0..9 is the number of exactly one of the ten classes, and that class is
  the witness: every row has a class, which is what makes the indicator row of a label a one-hot row.

  The two finiteness conjuncts of the float arguments are not opened here.
-/
import proofs.«430536_j62929860821403_3_alg».proof.Defs
import proofs.«430536_j62929860821403_3_alg».proof.Proof.Spec
import Idealize.ShloMosaic.Lib.ReduceAll
import Idealize.ShloMosaic.Lib.StableHlo.Predicate

noncomputable section

namespace Cert.LabelRange

open Idealize.ShloMosaic Idealize.ShloMosaic.ValueIdx

variable [hP : Cert.Pre_finite_inputs.Facts]

/-- The scalar shape has one index. -/
instance : Subsingleton Cert.Pre_finite_inputs.S_.Idx := ⟨fun a b => funext fun d => d.elim0⟩

/-- A word that compares ≥ 0 and < 10, signed, is the number of one of the ten classes. -/
theorem word_class (w : BitVec 32) (h0 : IntOp.cmpi .sge w 0#32 = 1#1) (h10 : IntOp.cmpi .slt w 10#32 = 1#1) :
    ∃ j : Fin 10, w.toInt = (j.val : Int) := by
  rw [IntOp.cmpi_sge, show (0#32 : BitVec 32).toInt = 0 from by decide] at h0
  rw [IntOp.cmpi_slt, show (10#32 : BitVec 32).toInt = 10 from by decide] at h10
  refine ⟨⟨w.toInt.toNat, by omega⟩, ?_⟩
  show w.toInt = ((w.toInt.toNat : Nat) : Int)
  omega

/-- When the precondition's bit is set, every row's label is one of the ten classes. -/
theorem label_class {F : FTy → Type} [FloatOps F] (X : FVec F Cert.Pre_finite_inputs.S262144x256 .f32)
    (L : IVec Cert.Pre_finite_inputs.S262144 32) (Cn : FVec F Cert.Pre_finite_inputs.S10x256 .f32)
    (h : Cert.Pre_finite_inputs.fn X L Cn = (fun _ => 1#1)) (n : Fin 262144) :
    ∃ j : Fin 10, Cert.Spec.labelIs L n j := by
  -- the predicate's one bit
  have e := congrFun h ix0
  dsimp only [Cert.Pre_finite_inputs.fn] at e
  -- its last conjunct: the "all" over the rows
  obtain ⟨-, eall⟩ := IntOp.andi_eq_one.1 (show IntOp.andi _ _ = 1#1 from e)
  -- the bit of row n, and its two comparisons
  have en := Host.reduce_andi_all _ _ _ _ _ eall (ix1 n)
  obtain ⟨h0, h10⟩ := IntOp.andi_eq_one.1 (show IntOp.andi _ _ = 1#1 from en)
  -- each comparison is against a broadcast scalar constant, which reads the constant at every row
  have b0 := StableHlo.Predicate.bcast_scalar hP.bcast_S_S262144 hP.h_S_ (constantI Cert.Pre_finite_inputs.S_ 32 0#32) (ix1 n)
  have b10 := StableHlo.Predicate.bcast_scalar hP.bcast_S_S262144 hP.h_S_ (constantI Cert.Pre_finite_inputs.S_ 32 10#32) (ix1 n)
  have h0' : IntOp.cmpi .sge (L (ix1 n)) 0#32 = 1#1 := by
    have := h0; unfold cmpi at this; rw [b0] at this; exact this
  have h10' : IntOp.cmpi .slt (L (ix1 n)) 10#32 = 1#1 := by
    have := h10; unfold cmpi at this; rw [b10] at this; exact this
  exact word_class (L (ix1 n)) h0' h10'

/-- The same of the idealized kernel's launch memory: under its precondition, on every device, every row's label
    (the second argument array) is one of the ten classes. -/
theorem label_class_of_pre
    (m : (ℓ : Loc Cert.KernelIdeal.nD Cert.KernelIdeal.τ Cert.KernelIdeal.sig) → Buf (Elt Ideal) ℓ)
    (h : Cert.Pre_KernelIdeal m) (c : Dev Cert.KernelIdeal.nD) (n : Fin 262144) :
    ∃ j : Fin 10, Cert.Spec.labelIs
      (m ((c.tc : Thread Cert.KernelIdeal.nD Cert.KernelIdeal.τ).loc Cert.KernelIdeal.main_arg1)) n j :=
  label_class (F := Ideal) _ _ _ (h c) n

end Cert.LabelRange

end
-- ==== Proof.lean ====
/-
  The certificate: the kernel's two losses are the reference's, on the extended reals, for labels in 0..9.

  Both programs take features [262144, 256], labels [262144] and centers [10, 256] and return the intra loss (the mean over
  the batch of the clipped distance of each row to the center of its own class), the inter loss (the reciprocal of the
  clipped doubled distance between the last two class centers after each has absorbed its class's feature sum, divided by
  its class count or one), and the centers unchanged.

  The kernel streams the batch in 32 blocks of 8192 rows. For each block it forms the clamped squared distances
  |x|² + |c|² - 2 <x, c> to all ten centers, multiplies each row by the indicator row of its label and sums the row to get
  the distance to its own center, takes the square root, clips and adds the block's total to a running sum; it adds the
  indicator-weighted feature rows (a matrix product with the one-hot rows) to a [10, 256] block of class sums and the
  indicators themselves to a row of class counts. After the last block the host divides the running sum by the batch size
  and computes the inter loss from the class sums and counts. The reference does the same with a gather of the own distance
  and two scatter-adds. On the extended reals a sum against an indicator row picks one entry and an indicator-weighted sum
  is a sum over the rows of that class, with no finiteness needed, and a sum over the batch is the sum of its 32 block sums.

  The one place the two differ is a label outside 0..9: the kernel's indicator row is then zero, while the reference's
  gather wraps or clamps the index. The precondition therefore asks every label to be a class number, and that is used
  exactly once, where the reference's gather is read as the sum against the indicator row. The finiteness of the float
  inputs, which the precondition also states, is never used.

  The frames of the two kernel programs are the generated ones; the reference's frame is its generated run with the results
  dropped; the idealization rewrote nothing, so there is nothing to preserve.
-/
import proofs.«430536_j62929860821403_3_alg».proof.Defs
import proofs.«430536_j62929860821403_3_alg».proof.Proof.Gen.Kernel
import proofs.«430536_j62929860821403_3_alg».proof.Proof.Gen.Kernel.Skeleton
import proofs.«430536_j62929860821403_3_alg».proof.Proof.Gen.Kernel.Launch
import proofs.«430536_j62929860821403_3_alg».proof.Proof.Gen.Kernel.Points
import proofs.«430536_j62929860821403_3_alg».proof.Proof.Gen.Kernel.Frame
import proofs.«430536_j62929860821403_3_alg».proof.Proof.Gen.KernelIdeal
import proofs.«430536_j62929860821403_3_alg».proof.Proof.Gen.KernelIdeal.Skeleton
import proofs.«430536_j62929860821403_3_alg».proof.Proof.Gen.KernelIdeal.Launch
import proofs.«430536_j62929860821403_3_alg».proof.Proof.Gen.KernelIdeal.Points
import proofs.«430536_j62929860821403_3_alg».proof.Proof.Gen.KernelIdeal.Frame
import proofs.«430536_j62929860821403_3_alg».proof.Proof.Gen.ReferenceIdeal
import proofs.«430536_j62929860821403_3_alg».proof.Proof.Gen.Pre_finite_inputs
import proofs.«430536_j62929860821403_3_alg».proof.Proof.Gen.ReferenceIdeal.Run
import proofs.«430536_j62929860821403_3_alg».proof.Proof.Gen.ReferenceIdeal.Read
import proofs.«430536_j62929860821403_3_alg».proof.Proof.KernelRun
import proofs.«430536_j62929860821403_3_alg».proof.Proof.RefValue
import proofs.«430536_j62929860821403_3_alg».proof.Proof.LabelRange
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the results dropped. -/
theorem frame_reference : Cert.frame_ReferenceIdeal := fun m ρ _ =>
  (θ_run Cert.ReferenceIdeal.defs _ _).mono (fun _ h c => (h c).2.2.2)
    (Cert.ReferenceIdeal.Value.run (F := Ideal) m ρ)

/-- The idealization rewrote no operation. -/
theorem preserves : Cert.preserves_Kernel_KernelIdeal := trivial

/-- From memories that agree on the three arguments, with every label a class number, both programs end with the intra
    loss and the inter loss of the specification, and with the centers and all three arguments as they were. -/
theorem algebraic : Cert.algebraic_KernelIdeal_ReferenceIdeal := by
  intro m ρ m' ρ' hpre hagree
  -- every label of the reference's memory is a class number, since it is the kernel's label
  have hL : ∀ (c : Dev Cert.ReferenceIdeal.nD) (n : Fin 262144), ∃ j : Fin 10,
      Cert.Spec.labelIs (m' ((c.tc : Thread Cert.ReferenceIdeal.nD Cert.ReferenceIdeal.τ).loc Cert.ReferenceIdeal.main_arg1)) n j := by
    intro c n
    rw [(hagree c).2.1]
    exact Cert.LabelRange.label_class_of_pre m hpre c n
  refine ⟨fun c => fun _ => Cert.Spec.intra (Cert.KernelIdeal.KernelRun.feats m c) (Cert.KernelIdeal.KernelRun.labels m c)
      (Cert.KernelIdeal.KernelRun.centers m c),
    fun c => fun _ => Cert.Spec.inter (Cert.KernelIdeal.KernelRun.feats m c) (Cert.KernelIdeal.KernelRun.labels m c)
      (Cert.KernelIdeal.KernelRun.centers m c),
    fun c => m ((c.tc : Thread Cert.KernelIdeal.nD Cert.KernelIdeal.τ).loc Cert.KernelIdeal.main_arg2),
    Cert.KernelIdeal.KernelRun.run m ρ, ?_⟩
  refine (θ_run Cert.ReferenceIdeal.defs _ _).mono (fun _ h c => ?_) (Cert.RefValue.run m' ρ' hL)
  refine ⟨(h c).1.trans ?_, (h c).2.1.trans ?_, (h c).2.2.1.trans (hagree c).2.2,
    (h c).2.2.2.1, (h c).2.2.2.2.1, (h c).2.2.2.2.2⟩
  · rw [(hagree c).1, (hagree c).2.1, (hagree c).2.2]; rfl
  · rw [(hagree c).1, (hagree c).2.1, (hagree c).2.2]; rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
